-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S1 : Shape := ⟨1, ![1]⟩
abbrev S2000000 : Shape := ⟨1, ![2000000]⟩
abbrev S8000000 : Shape := ⟨1, ![8000000]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_
  bcast_S_S8000000 : S_.BroadcastsInDim S8000000 (![] : Fin 0 → Fin S8000000.rank)
  reducesTo_S8000000_S_d0 : S8000000.ReducesTo [0] S_

variable [Facts]

def fn_part2 {F : FTy → Type} [FloatOps F] (main_arg6 : IVec S8000000 32) (main_v27 : IVec S_ 1) (main_v32 : IVec S8000000 1) (main_c_12 : IVec S_ 1) : IVec S_ 1 :=
  let main_v33 : IVec S_ 1 := (fun x v => Host.reduce IntOp.andi x v reducesTo_S8000000_S_d0 h_S_) main_v32 main_c_12
  let main_v34 : IVec S_ 1 := andi main_v27 main_v33
  let main_c_13 : IVec S_ 32 := constantI S_ 32 4294959104#32
  let main_v35 : IVec S8000000 32 := broadcastInDim S8000000 ![] bcast_S_S8000000 main_c_13
  let main_v36 : IVec S8000000 1 := cmpi .sge main_arg6 main_v35
  let main_c_14 : IVec S_ 32 := constantI S_ 32 8192#32
  let main_v37 : IVec S8000000 32 := broadcastInDim S8000000 ![] bcast_S_S8000000 main_c_14
  let main_v38 : IVec S8000000 1 := cmpi .slt main_arg6 main_v37
  let main_v39 : IVec S8000000 1 := andi main_v36 main_v38
  let main_c_15 : IVec S_ 1 := constantI S_ 1 1#1
  let main_v40 : IVec S_ 1 := (fun x v => Host.reduce IntOp.andi x v reducesTo_S8000000_S_d0 h_S_) main_v39 main_c_15
  let main_v41 : IVec S_ 1 := andi main_v34 main_v40
  main_v41

def fn_part1 {F : FTy → Type} [FloatOps F] (main_arg3 : IVec S2000000 32) (main_arg4 : IVec S2000000 32) (main_arg5 : IVec S8000000 32) (main_arg6 : IVec S8000000 32) (main_v13 : IVec S_ 1) (main_v15 : IVec S2000000 1) (main_c_5 : IVec S_ 32) : IVec S_ 1 :=
  let main_v16 : IVec S2000000 32 := broadcastInDim S2000000 ![] bcast_S_S2000000 main_c_5
  let main_v17 : IVec S2000000 1 := cmpi .slt main_arg3 main_v16
  let main_v18 : IVec S2000000 1 := andi main_v15 main_v17
  let main_c_6 : IVec S_ 1 := constantI S_ 1 1#1
  let main_v19 : IVec S_ 1 := (fun x v => Host.reduce IntOp.andi x v reducesTo_S2000000_S_d0 h_S_) main_v18 main_c_6
  let main_v20 : IVec S_ 1 := andi main_v13 main_v19
  let main_c_7 : IVec S_ 32 := constantI S_ 32 4294959104#32
  let main_v21 : IVec S2000000 32 := broadcastInDim S2000000 ![] bcast_S_S2000000 main_c_7
  let main_v22 : IVec S2000000 1 := cmpi .sge main_arg4 main_v21
  let main_c_8 : IVec S_ 32 := constantI S_ 32 8192#32
  let main_v23 : IVec S2000000 32 := broadcastInDim S2000000 ![] bcast_S_S2000000 main_c_8
  let main_v24 : IVec S2000000 1 := cmpi .slt main_arg4 main_v23
  let main_v25 : IVec S2000000 1 := andi main_v22 main_v24
  let main_c_9 : IVec S_ 1 := constantI S_ 1 1#1
  let main_v26 : IVec S_ 1 := (fun x v => Host.reduce IntOp.andi x v reducesTo_S2000000_S_d0 h_S_) main_v25 main_c_9
  let main_v27 : IVec S_ 1 := andi main_v20 main_v26
  let main_c_10 : IVec S_ 32 := constantI S_ 32 4294959104#32
  let main_v28 : IVec S8000000 32 := broadcastInDim S8000000 ![] bcast_S_S8000000 main_c_10
  let main_v29 : IVec S8000000 1 := cmpi .sge main_arg5 main_v28
  let main_c_11 : IVec S_ 32 := constantI S_ 32 8192#32
  let main_v30 : IVec S8000000 32 := broadcastInDim S8000000 ![] bcast_S_S8000000 main_c_11
  let main_v31 : IVec S8000000 1 := cmpi .slt main_arg5 main_v30
  let main_v32 : IVec S8000000 1 := andi main_v29 main_v31
  let main_c_12 : IVec S_ 1 := constantI S_ 1 1#1
  fn_part2 (F := F) main_arg6 main_v27 main_v32 main_c_12

def fn {F : FTy → Type} [FloatOps F] (main_arg0 : FVec F S8192x8192 .f32) (main_arg1 : FVec F S8192x8192 .f32) (main_arg2 : FVec F S1 .f32) (main_arg3 : IVec S2000000 32) (main_arg4 : IVec S2000000 32) (main_arg5 : IVec S8000000 32) (main_arg6 : IVec S8000000 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294959104#32
  let main_v14 : IVec S2000000 32 := broadcastInDim S2000000 ![] bcast_S_S2000000 main_c_4
  let main_v15 : IVec S2000000 1 := cmpi .sge main_arg3 main_v14
  let main_c_5 : IVec S_ 32 := constantI S_ 32 8192#32
  fn_part1 (F := F) main_arg3 main_arg4 main_arg5 main_arg6 main_v13 main_v15 main_c_5
-- ==== Kernel.lean ====
abbrev S8192x8192 : Shape := ⟨2, ![8192, 8192]⟩
abbrev S1 : Shape := ⟨1, ![1]⟩
abbrev S2000000 : Shape := ⟨1, ![2000000]⟩
abbrev S8000000 : Shape := ⟨1, ![8000000]⟩
abbrev S_ : Shape := ⟨0, ![]⟩
abbrev S10000000 : Shape := ⟨1, ![10000000]⟩
abbrev S10000000x1 : Shape := ⟨2, ![10000000, 1]⟩
abbrev S10000000x2 : Shape := ⟨2, ![10000000, 2]⟩
abbrev S2x4096x8192 : Shape := ⟨3, ![2, 4096, 8192]⟩
abbrev S2x8x128 : Shape := ⟨3, ![2, 8, 128]⟩
abbrev S1x1x1 : Shape := ⟨3, ![1, 1, 1]⟩
abbrev S1x1024x1024 : Shape := ⟨3, ![1, 1024, 1024]⟩
abbrev S1x8x128 : Shape := ⟨3, ![1, 8, 128]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S8x128 : Shape := ⟨2, ![8, 128]⟩

abbrev nBuf : Space → Nat
  | .hbm => 48
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S1, .f32⟩
  | .hbm, ⟨3, _⟩ => ⟨S2000000, .i32⟩
  | .hbm, ⟨4, _⟩ => ⟨S2000000, .i32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10000000, .i32⟩
  | .hbm, ⟨15, _⟩ => ⟨S10000000, .i32⟩
  | .hbm, ⟨16, _⟩ => ⟨S2000000, .f32⟩
  | .hbm, ⟨17, _⟩ => ⟨S8000000, .f32⟩
  | .hbm, ⟨18, _⟩ => ⟨S10000000, .f32⟩
  | .hbm, ⟨19, _⟩ => ⟨S_, .f32⟩
  | .hbm, ⟨20, _⟩ => ⟨S8192x8192, .f32⟩
  | .hbm, ⟨21, _⟩ => ⟨S_, .i32⟩
  | .hbm, ⟨22, _⟩ => ⟨S10000000, .i32⟩
  | .hbm, ⟨23, _⟩ => ⟨S10000000, .i1⟩
  | .hbm, ⟨24, _⟩ => ⟨S_, .i32⟩
  | .hbm, ⟨25, _⟩ => ⟨S10000000, .i32⟩
  | .hbm, ⟨26, _⟩ => ⟨S10000000, .i32⟩
  | .hbm, ⟨27, _⟩ => ⟨S10000000, .i32⟩
  | .hbm, ⟨28, _⟩ => ⟨S_, .i32⟩
  | .hbm, ⟨29, _⟩ => ⟨S10000000, .i32⟩
  | .hbm, ⟨30, _⟩ => ⟨S10000000, .i1⟩
  | .hbm, ⟨31, _⟩ => ⟨S_, .i32⟩
  | .hbm, ⟨32, _⟩ => ⟨S10000000, .i32⟩
  | .hbm, ⟨33, _⟩ => ⟨S10000000, .i32⟩
  | .hbm, ⟨34, _⟩ => ⟨S10000000, .i32⟩
  | .hbm, ⟨35, _⟩ => ⟨S10000000x1, .i32⟩
  | .hbm, ⟨36, _⟩ => ⟨S10000000x1, .i32⟩
  | .hbm, ⟨37, _⟩ => ⟨S10000000x2, .i32⟩
  | .hbm, ⟨38, _⟩ => ⟨S8192x8192, .f32⟩
  | .hbm, ⟨39, _⟩ => ⟨S2x4096x8192, .f32⟩
  | .hbm, ⟨40, _⟩ => ⟨S2x4096x8192, .f32⟩
  | .hbm, ⟨41, _⟩ => ⟨S2x4096x8192, .f32⟩
  | .hbm, ⟨42, _⟩ => ⟨S2x8x128, .f32⟩
  | .hbm, ⟨43, _⟩ => ⟨S1x1x1, .f32⟩
  | .hbm, ⟨44, _⟩ => ⟨S_, .f32⟩
  | .hbm, ⟨45, _⟩ => ⟨S1x1x1, .f32⟩
  | .hbm, ⟨46, _⟩ => ⟨S_, .f32⟩
  | .hbm, ⟨47, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_cst_1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_cst_2 : Ref sig .tc := ⟨.hbm, 19, rfl⟩
abbrev main_call0_v9 : Ref sig .tc := ⟨.hbm, 20, rfl⟩
abbrev main_call0_c : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_c_4 : Ref sig .tc := ⟨.hbm, 28, rfl⟩
abbrev main_call0_v15 : Ref sig .tc := ⟨.hbm, 29, rfl⟩
abbrev main_call0_v16 : Ref sig .tc := ⟨.hbm, 30, rfl⟩
abbrev main_call0_c_5 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_v0 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S1_S_ : S1.ShapeCasts S_
  concatenates_S2000000_S8000000_S10000000_d0 : Shape.Concatenates [S2000000, S8000000] S10000000 0
  bcast_S_S2000000 : S_.BroadcastsInDim S2000000 (![] : Fin 0 → Fin S2000000.rank)
  bcast_S_S8000000 : S_.BroadcastsInDim S8000000 (![] : Fin 0 → Fin S8000000.rank)
  bcast_S_S8192x8192 : S_.BroadcastsInDim S8192x8192 (![] : Fin 0 → Fin S8192x8192.rank)
  bcast_S_S10000000 : S_.BroadcastsInDim S10000000 (![] : Fin 0 → Fin S10000000.rank)
  bcast_S10000000_S10000000x1_0 : S10000000.BroadcastsInDim S10000000x1 (![0] : Fin 1 → Fin S10000000x1.rank)
  concatenates_S10000000x1_S10000000x1_S10000000x2_d1 : Shape.Concatenates [S10000000x1, S10000000x1] S10000000x2 1
  shapeCasts_S8192x8192_S2x4096x8192 : S8192x8192.ShapeCasts S2x4096x8192
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  scatter_S8192x8192_S10000000x2_S10000000_n_01_01_1_wf : ScatterDims.WF S8192x8192 S10000000x2 S10000000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x4096x8192.size a
  hwx0_0 : ∀ i : grid0.Coords, EltTy.bits .f32 = 32 ∨ (Rect.block (s := S2x4096x8192) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x4096x8192.size a
  hwx0_1 : ∀ i : grid0.Coords, EltTy.bits .f32 = 32 ∨ (Rect.block (s := S2x4096x8192) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x4096x8192.size a
  hwx0_2 : ∀ i : grid0.Coords, EltTy.bits .f32 = 32 ∨ (Rect.block (s := S2x4096x8192) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def scatter_S8192x8192_S10000000x2_S10000000_n_01_01_1 : ScatterDims S8192x8192 S10000000x2 S10000000 where
  updateWindowDims := []
  insertedWindowDims := [0, 1]
  scatterDimsToOperandDims := [0, 1]
  indexVectorDim := 1
  wf := scatter_S8192x8192_S10000000x2_S10000000_n_01_01_1_wf

abbrev win0_0 : Pipeline.Window sig grid0 :=
  Pipeline.Window.ofSpec (Memref.whole main_call0_v24) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v25) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v26) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S1 : Shape := ⟨1, ![1]⟩
abbrev S2000000 : Shape := ⟨1, ![2000000]⟩
abbrev S8000000 : Shape := ⟨1, ![8000000]⟩
abbrev S_ : Shape := ⟨0, ![]⟩
abbrev S2000000x1 : Shape := ⟨2, ![2000000, 1]⟩
abbrev S2000000x2 : Shape := ⟨2, ![2000000, 2]⟩
abbrev S8000000x1 : Shape := ⟨2, ![8000000, 1]⟩
abbrev S8000000x2 : Shape := ⟨2, ![8000000, 2]⟩

abbrev nBuf : Space → Nat
  | .hbm => 97
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S1, .f32⟩
  | .hbm, ⟨3, _⟩ => ⟨S2000000, .i32⟩
  | .hbm, ⟨4, _⟩ => ⟨S2000000, .i32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x1, .i32⟩
  | .hbm, ⟨24, _⟩ => ⟨S2000000x2, .i32⟩
  | .hbm, ⟨25, _⟩ => ⟨S2000000, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x1, .i32⟩
  | .hbm, ⟨42, _⟩ => ⟨S2000000x2, .i32⟩
  | .hbm, ⟨43, _⟩ => ⟨S2000000, .f32⟩
  | .hbm, ⟨44, _⟩ => ⟨S2000000, .f32⟩
  | .hbm, ⟨45, _⟩ => ⟨S_, .i32⟩
  | .hbm, ⟨46, _⟩ => ⟨S8000000, .i32⟩
  | .hbm, ⟨47, _⟩ => ⟨S8000000, .i1⟩
  | .hbm, ⟨48, _⟩ => ⟨S_, .i32⟩
  | .hbm, ⟨49, _⟩ => ⟨S8000000, .i32⟩
  | .hbm, ⟨50, _⟩ => ⟨S8000000, .i32⟩
  | .hbm, ⟨51, _⟩ => ⟨S8000000, .i32⟩
  | .hbm, ⟨52, _⟩ => ⟨S_, .i32⟩
  | .hbm, ⟨53, _⟩ => ⟨S8000000, .i32⟩
  | .hbm, ⟨54, _⟩ => ⟨S8000000, .i1⟩
  | .hbm, ⟨55, _⟩ => ⟨S_, .i32⟩
  | .hbm, ⟨56, _⟩ => ⟨S8000000, .i32⟩
  | .hbm, ⟨57, _⟩ => ⟨S8000000, .i32⟩
  | .hbm, ⟨58, _⟩ => ⟨S8000000, .i32⟩
  | .hbm, ⟨59, _⟩ => ⟨S8000000x1, .i32⟩
  | .hbm, ⟨60, _⟩ => ⟨S8000000x1, .i32⟩
  | .hbm, ⟨61, _⟩ => ⟨S8000000x2, .i32⟩
  | .hbm, ⟨62, _⟩ => ⟨S8000000, .f32⟩
  | .hbm, ⟨63, _⟩ => ⟨S_, .i32⟩
  | .hbm, ⟨64, _⟩ => ⟨S8000000, .i32⟩
  | .hbm, ⟨65, _⟩ => ⟨S8000000, .i1⟩
  | .hbm, ⟨66, _⟩ => ⟨S_, .i32⟩
  | .hbm, ⟨67, _⟩ => ⟨S8000000, .i32⟩
  | .hbm, ⟨68, _⟩ => ⟨S8000000, .i32⟩
  | .hbm, ⟨69, _⟩ => ⟨S8000000, .i32⟩
  | .hbm, ⟨70, _⟩ => ⟨S_, .i32⟩
  | .hbm, ⟨71, _⟩ => ⟨S8000000, .i32⟩
  | .hbm, ⟨72, _⟩ => ⟨S8000000, .i1⟩
  | .hbm, ⟨73, _⟩ => ⟨S_, .i32⟩
  | .hbm, ⟨74, _⟩ => ⟨S8000000, .i32⟩
  | .hbm, ⟨75, _⟩ => ⟨S8000000, .i32⟩
  | .hbm, ⟨76, _⟩ => ⟨S8000000, .i32⟩
  | .hbm, ⟨77, _⟩ => ⟨S8000000x1, .i32⟩
  | .hbm, ⟨78, _⟩ => ⟨S8000000x1, .i32⟩
  | .hbm, ⟨79, _⟩ => ⟨S8000000x2, .i32⟩
  | .hbm, ⟨80, _⟩ => ⟨S8000000, .f32⟩
  | .hbm, ⟨81, _⟩ => ⟨S8000000, .f32⟩
  | .hbm, ⟨82, _⟩ => ⟨S2000000, .f32⟩
  | .hbm, ⟨83, _⟩ => ⟨S_, .f32⟩
  | .hbm, ⟨84, _⟩ => ⟨S_, .f32⟩
  | .hbm, ⟨85, _⟩ => ⟨S8000000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_c_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  shapeCasts_S1_S_ : S1.ShapeCasts S_
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x2_d1 : Shape.Concatenates [S8000000x1, S8000000x1] S8000000x2 1
  reducesTo_S2000000_S_d0 : S2000000.ReducesTo [0] S_
  h_S_ : 0 < S_.numel
  reducesTo_S8000000_S_d0 : S8000000.ReducesTo [0] S_
  gather_S8192x8192_S2000000x2_S2000000_n_01_n_n_01_1_11_wf : GatherDims.WF S8192x8192 S2000000x2 S2000000 [] [0, 1] [] [0, 1] [] 1 ![1, 1]
  gather_S8192x8192_S8000000x2_S8000000_n_01_n_n_01_1_11_wf : GatherDims.WF S8192x8192 S8000000x2 S8000000 [] [0, 1] [] [0, 1] [] 1 ![1, 1]

variable [Facts₀]

def gather_S8192x8192_S2000000x2_S2000000_n_01_n_n_01_1_11 : GatherDims S8192x8192 S2000000x2 S2000000 where
  offsetDims := []
  collapsedSliceDims := [0, 1]
  operandBatchingDims := []
  startIndicesBatchingDims := []
  startIndexMap := [0, 1]
  indexVectorDim := 1
  sliceSizes := ![1, 1]
  wf := gather_S8192x8192_S2000000x2_S2000000_n_01_n_n_01_1_11_wf
def gather_S8192x8192_S8000000x2_S8000000_n_01_n_n_01_1_11 : GatherDims S8192x8192 S8000000x2 S8000000 where
  offsetDims := []
  collapsedSliceDims := [0, 1]
  operandBatchingDims := []
  startIndicesBatchingDims := []
  startIndexMap := [0, 1]
  indexVectorDim := 1
  sliceSizes := ![1, 1]
  wf := gather_S8192x8192_S8000000x2_S8000000_n_01_n_n_01_1_11_wf

class Facts : Prop extends Facts₀ where

variable [Facts]
-- ==== Proof.Spec.lean ====
/-
  The quantity both programs compute, and the vocabulary its proof shares.

  Two 8192 × 8192 matrices `A` and `B`, a mixing weight `α`, and two lists of positions — 2·10⁶ "positive" pairs and
  8·10⁶ "negative" pairs of index words. A word is read the way NumPy reads an index: signed, a negative word
  counting from the end of the axis. With `d(i) = (A i − B i)²` the quantity is

      (0 + ∑ₖ d(pos k)) · ((1 − α) · ½)  +  (0 + ∑ₖ d(neg k)) · (α · ½).

  One program gathers `d` at the listed positions and sums; the other first scatters the per-position weights into a
  weight matrix `W` (each cell: the total weight of the positions that name it) and then sums `d(i) · W(i)` over all
  cells, tile by tile. Exchanging the two sums is the whole argument; it needs `d` and the weights to be real numbers
  (products distribute over sums of reals, not over sums in which +∞ and −∞ can meet).
-/
import Idealize.ShloMosaic.PureOps.Ideal
import Idealize.ShloMosaic.Lib.ValueIdx

noncomputable section

namespace Cert.Wsse

open Idealize.ShloMosaic Idealize.ShloMosaic.ValueIdx
open scoped BigOperators

/-- The matrices' shape, the two position lists' shapes, the mixing weight's shape. -/
abbrev SM : Shape := ⟨2, ![8192, 8192]⟩
abbrev SP : Shape := ⟨1, ![2000000]⟩
abbrev SN : Shape := ⟨1, ![8000000]⟩
abbrev SA : Shape := ⟨1, ![1]⟩

/-- A word is a valid index on an axis of 8192: from −8192 to 8191, read signed. -/
def InRange (x : BitVec 32) : Prop := -8192 ≤ x.toInt ∧ x.toInt < 8192

/-- A negative index word counts from the end of the axis: both programs add 8192 to it. -/
def norm (x : BitVec 32) : BitVec 32 := Scalar.select (IntOp.cmpi .slt x 0#32) (IntOp.addi x 8192#32) x

/-- The coordinate an index word names on an axis of 8192: normalised, read signed, and kept inside the axis. -/
def coord (x : BitVec 32) : Fin 8192 := ⟨min (norm x).toInt.toNat 8191, by omega⟩

/-- The cell a pair of index words names. -/
def cell (x y : BitVec 32) : SM.Idx := ix2 (coord x) (coord y)

/-- The squared difference of the two matrices at a cell. -/
def sqd (A B : SM.Idx → EReal) (i : SM.Idx) : EReal := (A i - B i) * (A i - B i)

/-- The three float constants both programs spell: +0.0, 1.0 and 0.5. -/
abbrev zero : EReal := Ideal.ofBits .f32 0x00000000#32
abbrev one : EReal := Ideal.ofBits .f32 0x3F800000#32
abbrev half : EReal := Ideal.ofBits .f32 0x3F000000#32

/-- The weight of a positive position and of a negative position. -/
def posW (al : SA.Idx → EReal) : EReal := (one - al (ix1 0)) * half
def negW (al : SA.Idx → EReal) : EReal := al (ix1 0) * half

/-- The quantity, as the gathering program arranges it. -/
def result (A B : SM.Idx → EReal) (al : SA.Idx → EReal) (px py : SP.Idx → BitVec 32) (nx ny : SN.Idx → BitVec 32) : EReal :=
  (zero + ∑ k : SP.Idx, sqd A B (cell (px k) (py k))) * posW al
    + (zero + ∑ k : SN.Idx, sqd A B (cell (nx k) (ny k))) * negW al

/-- The quantity, as the scattering program arranges it: every cell's squared difference times the cell's weight. -/
def weighted (A B W : SM.Idx → EReal) : EReal := ∑ i : SM.Idx, sqd A B i * W i

/-! ## The tiles -/

/-- Grid point `t` of 64 (two halves of 4 × 8 tiles of 1024 × 1024) covers these rows and columns. -/
def tileRow (t : Fin 64) (r : Fin 1024) : Fin 8192 := ⟨(t.val / 32) * 4096 + (t.val / 8 % 4) * 1024 + r.val, by omega⟩
def tileCol (t : Fin 64) (q : Fin 1024) : Fin 8192 := ⟨(t.val % 8) * 1024 + q.val, by omega⟩

/-- The sum of `f` over tile `t`, rows outside, columns inside. -/
def tile (f : Fin 8192 → Fin 8192 → EReal) (t : Fin 64) : EReal :=
  ∑ r : Fin 1024, ∑ q : Fin 1024, f (tileRow t r) (tileCol t q)

/-- The running total after grid point `n`: started afresh at the first point of each half, else the previous
    total plus the point's tile. -/
def accum (f : Fin 8192 → Fin 8192 → EReal) : (n : ℕ) → n < 64 → EReal
  | 0, h => 0 + tile f ⟨0, h⟩
  | n + 1, h => if (n + 1) % 32 = 0 then 0 + tile f ⟨n + 1, h⟩ else accum f n (Nat.lt_of_succ_lt h) + tile f ⟨n + 1, h⟩

end Cert.Wsse

end
-- ==== Proof.KDefs.lean ====
/-
  The scattering program's side: shared vocabulary.

  Before its one grid of tiles the program builds, on the host, the weight matrix `W`: the positive and negative
  index lists are joined (2·10⁶ + 8·10⁶ positions), each index word normalised (a negative word counts from the end
  of the axis), the per-position weights `(1 − α)·½` and `α·½` laid out alongside, and everything scatter-added into a
  matrix of zeros. The three matrices `A`, `B`, `W` are then viewed as two halves of 4096 rows and walked in
  1024 × 1024 tiles; each grid point adds its tile's `∑ (A − B)² · W` to a running total that is started afresh at the
  first tile of each half, and writes the running total out.
-/
import proofs.«415010_j58162447123174_3_alg».proof.Proof.Gen.KernelIdeal.Frame
import proofs.«415010_j58162447123174_3_alg».proof.Proof.Spec
import Idealize.ShloMosaic.Lib.ValueIdx

noncomputable section

namespace Cert.KernelIdeal.WVal

open Idealize.ShloMosaic Idealize.ShloMosaic.TcCoe Idealize.SL.Sem Idealize.ShloMosaic.ValueIdx
open Cert.KernelIdeal Cert.KernelIdeal.Gen
open scoped BigOperators

/-! ## The weight matrix, as the host operations before the grid compute it -/

/-- Every index word of the joined list, normalised: where the word is negative, the word plus 8192. -/
def normWords (x : IVec S10000000 32) : IVec S10000000 32 :=
  select (cmpi .slt x (broadcastInDim S10000000 ![] bcast_S_S10000000 (constantI S_ 32 0#32)))
    (addi x (broadcastInDim S10000000 ![] bcast_S_S10000000 (constantI S_ 32 8192#32))) x

/-- The joined list of index pairs: positive positions first, then negative; column 0 the row word, column 1 the
    column word, both normalised. -/
def idxPairs (px py : IVec S2000000 32) (nx ny : IVec S8000000 32) : IVec S10000000x2 32 :=
  concatenate S10000000x2 1
    [⟨S10000000x1, broadcastInDim S10000000x1 ![0] bcast_S10000000_S10000000x1_0
        (normWords (concatenate S10000000 0 [⟨S2000000, px⟩, ⟨S8000000, nx⟩] concatenates_S2000000_S8000000_S10000000_d0))⟩,
     ⟨S10000000x1, broadcastInDim S10000000x1 ![0] bcast_S10000000_S10000000x1_0
        (normWords (concatenate S10000000 0 [⟨S2000000, py⟩, ⟨S8000000, ny⟩] concatenates_S2000000_S8000000_S10000000_d0))⟩]
    concatenates_S10000000x1_S10000000x1_S10000000x2_d1

/-- The mixing weight as a scalar. -/
def alpha0 (al : FVec Ideal S1 .f32) : FVec Ideal S_ .f32 := shapeCast S_ al shapeCasts_S1_S_

/-- The per-position weights alongside the joined list: `(1 − α)·½` on the positive positions, `α·½` on the negative. -/
def posWeights (al : FVec Ideal S1 .f32) : FVec Ideal S10000000 .f32 :=
  concatenate S10000000 0
    [⟨S2000000, broadcastInDim S2000000 ![] bcast_S_S2000000
        (mulf (subf (constant S_ .f32 0x3F800000#32) (alpha0 al)) (constant S_ .f32 0x3F000000#32))⟩,
     ⟨S8000000, broadcastInDim S8000000 ![] bcast_S_S8000000 (mulf (alpha0 al) (constant S_ .f32 0x3F000000#32))⟩]
    concatenates_S2000000_S8000000_S10000000_d0

/-- The weight matrix: the per-position weights scatter-added into a matrix of zeros at the positions' cells. -/
def Wmat (al : FVec Ideal S1 .f32) (px py : IVec S2000000 32) (nx ny : IVec S8000000 32) : FVec Ideal S8192x8192 .f32 :=
  Host.scatterAdd scatter_S8192x8192_S10000000x2_S10000000_n_01_01_1
    (broadcastInDim S8192x8192 ![] bcast_S_S8192x8192 (constant S_ .f32 0x00000000#32))
    (idxPairs px py nx ny) (posWeights al)

variable (m : (ℓ : Loc nD τ sig) → Buf (Elt Ideal) ℓ)

/-! ## The arguments and the blocks, at their literal types -/

abbrev Amat (c : Dev nD) : FVec Ideal S8192x8192 .f32 := m ((c : Thread nD τ).loc main_arg0)
abbrev Bmat (c : Dev nD) : FVec Ideal S8192x8192 .f32 := m ((c : Thread nD τ).loc main_arg1)
abbrev alv (c : Dev nD) : FVec Ideal S1 .f32 := m ((c : Thread nD τ).loc main_arg2)
abbrev pxv (c : Dev nD) : IVec S2000000 32 := m ((c : Thread nD τ).loc main_arg3)
abbrev pyv (c : Dev nD) : IVec S2000000 32 := m ((c : Thread nD τ).loc main_arg4)
abbrev nxv (c : Dev nD) : IVec S8000000 32 := m ((c : Thread nD τ).loc main_arg5)
abbrev nyv (c : Dev nD) : IVec S8000000 32 := m ((c : Thread nD τ).loc main_arg6)

/-- The weight matrix of this memory's arguments. -/
abbrev Wm (c : Dev nD) : FVec Ideal S8192x8192 .f32 := Wmat (alv m c) (pxv m c) (pyv m c) (nxv m c) (nyv m c)

/-- The three input windows' blocks at grid point `t`: a tile of `A`, of `B`, of `W`. -/
abbrev xb0 (c : Dev nD) (t : Fin cfg0.N) : Vec Ideal S1x1024x1024 .f32 := iblk m c 0 t
abbrev xb1 (c : Dev nD) (t : Fin cfg0.N) : Vec Ideal S1x1024x1024 .f32 := iblk m c 1 t
abbrev xb2 (c : Dev nD) (t : Fin cfg0.N) : Vec Ideal S1x1024x1024 .f32 := iblk m c 2 t

/-! ## One tile's contribution and the running total -/

/-- One tile's `∑ (a − b)² · w`: rows outside, lanes inside, as the two reductions of the body take them. -/
def tileSum (x0 x1 x2 : Vec Ideal S1x1024x1024 .f32) : EReal :=
  ∑ r : Fin 1024, ∑ q : Fin 1024,
    (x0 (ix3 0 r q) - x1 (ix3 0 r q)) * (x0 (ix3 0 r q) - x1 (ix3 0 r q)) * x2 (ix3 0 r q)

/-- The running total after grid point `n`: afresh at the first point of each half (every 32 points), else the total
    before plus the point's tile. -/
def acc (c : Dev nD) : (n : ℕ) → n < cfg0.N → EReal
  | 0, h => 0 + tileSum (xb0 m c ⟨0, h⟩) (xb1 m c ⟨0, h⟩) (xb2 m c ⟨0, h⟩)
  | n + 1, h =>
    if (n + 1) % 32 = 0 then 0 + tileSum (xb0 m c ⟨n + 1, h⟩) (xb1 m c ⟨n + 1, h⟩) (xb2 m c ⟨n + 1, h⟩)
    else acc c n (Nat.lt_of_succ_lt h) + tileSum (xb0 m c ⟨n + 1, h⟩) (xb1 m c ⟨n + 1, h⟩) (xb2 m c ⟨n + 1, h⟩)

/-- The grid has 64 points. -/
theorem N64 : cfg0.N = 64 := N_0

theorem lt64 (t : Fin cfg0.N) : t.val < 64 := lt_of_lt_of_eq t.isLt N64

/-- What a cell contributes: its squared difference times its weight. -/
def cellF (c : Dev nD) : Fin 8192 → Fin 8192 → EReal :=
  fun a b => Cert.Wsse.sqd (Amat m c) (Bmat m c) (ix2 a b) * Wm m c (ix2 a b)

end Cert.KernelIdeal.WVal

end
-- ==== Proof.KBlocks.lean ====
/-
  The tiles are tiles of the arguments.

  The three arrays the grid walks are `A`, `B` and the weight matrix `W`, each viewed as two halves of 4096 rows:
  entry `(h, a, b)` of the view is entry `(4096·h + a, b)` of the matrix. Grid point `t` = (half, tile row, tile column)
  reads the 1024 × 1024 block at rows `4096·half + 1024·(tile row) …` and columns `1024·(tile column) …`, so its tile
  sum is the sum of `(A − B)² · W` over exactly those cells.
-/
import proofs.«415010_j58162447123174_3_alg».proof.Proof.KDefs
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.WVal

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-! ## The three arrays the grid walks -/

/-- The first array is `A` viewed as two halves. -/
theorem V_v24 (c : Dev nD) : (V m c main_call0_v24 : S2x4096x8192.Idx → EReal)
    = shapeCast S2x4096x8192 (Amat m c) shapeCasts_S8192x8192_S2x4096x8192 := by
  show StableHlo.after hostOps0 (fun b => m (c, b)) (Proc.devRef .tc main_call0_v24) = _
  after_results
  rfl

/-- The second array is `B` viewed as two halves. -/
theorem V_v25 (c : Dev nD) : (V m c main_call0_v25 : S2x4096x8192.Idx → EReal)
    = shapeCast S2x4096x8192 (Bmat m c) shapeCasts_S8192x8192_S2x4096x8192 := by
  show StableHlo.after hostOps0 (fun b => m (c, b)) (Proc.devRef .tc main_call0_v25) = _
  after_results
  rfl

set_option maxHeartbeats 1600000 in
/-- The third array is the weight matrix viewed as two halves: the chain of host operations that builds it is the
    weight matrix's own definition, operand for operand. -/
theorem V_v26 (c : Dev nD) : (V m c main_call0_v26 : S2x4096x8192.Idx → EReal)
    = shapeCast S2x4096x8192 (Wm m c) shapeCasts_S8192x8192_S2x4096x8192 := by
  dsimp only [V, V0]
  simp only [List.flatten_cons, List.flatten_nil, List.append_nil]
  after_results
  simp only [StableHlo.TRef.ofBuf, StableHlo.TRef.toBuf, cast_eq]
  rfl

/-! ## The two-halves view read at an index -/

/-- The two-halves view read at `(h, a, b)` is the matrix at row `4096·h + a`, column `b`: the same row-major
    position. -/
theorem halves_apply (X : FVec Ideal S8192x8192 .f32) (a : Fin 2) (b : Fin 4096) (q : Fin 8192)
    (row : Fin 8192) (hrow : row.val = a.val * 4096 + b.val) :
    shapeCast S2x4096x8192 X shapeCasts_S8192x8192_S2x4096x8192 (ix3 a b q) = X (ix2 row q) := by
  apply shapeCast_apply
  rw [Shape.rowMajor_val_three, Shape.rowMajor_val_two]
  show row.val * 8192 + q.val = (a.val * 4096 + b.val) * 8192 + q.val
  rw [hrow]

/-! ## The grid's index maps -/

/-- The index maps are the grid coordinates: point `t` of the 2 × 4 × 8 grid is (half, tile row, tile column). -/
theorem idx0 : ∀ t : Fin grid0.N,
    win0_0.index t 0 = t.val / 32 ∧ win0_0.index t 1 = t.val / 8 % 4 ∧ win0_0.index t 2 = t.val % 8 := by
  decide +kernel
theorem idx1 : ∀ t : Fin grid0.N,
    win0_1.index t 0 = t.val / 32 ∧ win0_1.index t 1 = t.val / 8 % 4 ∧ win0_1.index t 2 = t.val % 8 := by
  decide +kernel
theorem idx2 : ∀ t : Fin grid0.N,
    win0_2.index t 0 = t.val / 32 ∧ win0_2.index t 1 = t.val / 8 % 4 ∧ win0_2.index t 2 = t.val % 8 := by
  decide +kernel

/-! ## The blocks read at an index -/

/-- The first window's block at grid point `t`, read at `(0, r, q)`, is the array at
    (half, 1024·(tile row) + r, 1024·(tile column) + q), whatever the array holds: a block's coordinate is its index
    times its size plus the coordinate inside the block. -/
theorem blk0_read (Y : S2x4096x8192.Idx → EReal) (t : Fin cfg0.N) (r q : Fin 1024)
    (a : Fin 2) (b : Fin 4096) (d : Fin 8192)
    (ha : a.val = t.val / 32) (hb : b.val = t.val / 8 % 4 * 1024 + r.val) (hd : d.val = t.val % 8 * 1024 + q.val) :
    ((cfg0.win 0).blk t).view.read (Elt Ideal) Y (ix3 0 r q : S1x1024x1024.Idx) = Y (ix3 a b d) := by
  rw [View.read_apply]
  show Y _ = Y _
  congr 1
  funext e
  apply Fin.ext
  match e with
  | ⟨0, _⟩ => show win0_0.index t 0 * 1 + 1 * 0 = a.val; rw [(idx0 t).1, ha]; omega
  | ⟨1, _⟩ => show win0_0.index t 1 * 1024 + 1 * r.val = b.val; rw [(idx0 t).2.1, hb]; omega
  | ⟨2, _⟩ => show win0_0.index t 2 * 1024 + 1 * q.val = d.val; rw [(idx0 t).2.2, hd]; omega

/-- So the first input block is that part of the first array the grid walks. -/
theorem xb0_read (c : Dev nD) (t : Fin cfg0.N) (r q : Fin 1024) (a : Fin 2) (b : Fin 4096) (d : Fin 8192)
    (ha : a.val = t.val / 32) (hb : b.val = t.val / 8 % 4 * 1024 + r.val) (hd : d.val = t.val % 8 * 1024 + q.val) :
    xb0 m c t (ix3 0 r q) = (V m c main_call0_v24 : S2x4096x8192.Idx → EReal) (ix3 a b d) :=
  blk0_read (V m c main_call0_v24) t r q a b d ha hb hd

/-- The second window's block at grid point `t`, read at `(0, r, q)`, is the array at
    (half, 1024·(tile row) + r, 1024·(tile column) + q), whatever the array holds: a block's coordinate is its index
    times its size plus the coordinate inside the block. -/
theorem blk1_read (Y : S2x4096x8192.Idx → EReal) (t : Fin cfg0.N) (r q : Fin 1024)
    (a : Fin 2) (b : Fin 4096) (d : Fin 8192)
    (ha : a.val = t.val / 32) (hb : b.val = t.val / 8 % 4 * 1024 + r.val) (hd : d.val = t.val % 8 * 1024 + q.val) :
    ((cfg0.win 1).blk t).view.read (Elt Ideal) Y (ix3 0 r q : S1x1024x1024.Idx) = Y (ix3 a b d) := by
  rw [View.read_apply]
  show Y _ = Y _
  congr 1
  funext e
  apply Fin.ext
  match e with
  | ⟨0, _⟩ => show win0_1.index t 0 * 1 + 1 * 0 = a.val; rw [(idx1 t).1, ha]; omega
  | ⟨1, _⟩ => show win0_1.index t 1 * 1024 + 1 * r.val = b.val; rw [(idx1 t).2.1, hb]; omega
  | ⟨2, _⟩ => show win0_1.index t 2 * 1024 + 1 * q.val = d.val; rw [(idx1 t).2.2, hd]; omega

/-- So the second input block is that part of the second array the grid walks. -/
theorem xb1_read (c : Dev nD) (t : Fin cfg0.N) (r q : Fin 1024) (a : Fin 2) (b : Fin 4096) (d : Fin 8192)
    (ha : a.val = t.val / 32) (hb : b.val = t.val / 8 % 4 * 1024 + r.val) (hd : d.val = t.val % 8 * 1024 + q.val) :
    xb1 m c t (ix3 0 r q) = (V m c main_call0_v25 : S2x4096x8192.Idx → EReal) (ix3 a b d) :=
  blk1_read (V m c main_call0_v25) t r q a b d ha hb hd

/-- The third window's block at grid point `t`, read at `(0, r, q)`, is the array at
    (half, 1024·(tile row) + r, 1024·(tile column) + q), whatever the array holds: a block's coordinate is its index
    times its size plus the coordinate inside the block. -/
theorem blk2_read (Y : S2x4096x8192.Idx → EReal) (t : Fin cfg0.N) (r q : Fin 1024)
    (a : Fin 2) (b : Fin 4096) (d : Fin 8192)
    (ha : a.val = t.val / 32) (hb : b.val = t.val / 8 % 4 * 1024 + r.val) (hd : d.val = t.val % 8 * 1024 + q.val) :
    ((cfg0.win 2).blk t).view.read (Elt Ideal) Y (ix3 0 r q : S1x1024x1024.Idx) = Y (ix3 a b d) := by
  rw [View.read_apply]
  show Y _ = Y _
  congr 1
  funext e
  apply Fin.ext
  match e with
  | ⟨0, _⟩ => show win0_2.index t 0 * 1 + 1 * 0 = a.val; rw [(idx2 t).1, ha]; omega
  | ⟨1, _⟩ => show win0_2.index t 1 * 1024 + 1 * r.val = b.val; rw [(idx2 t).2.1, hb]; omega
  | ⟨2, _⟩ => show win0_2.index t 2 * 1024 + 1 * q.val = d.val; rw [(idx2 t).2.2, hd]; omega

/-- So the third input block is that part of the third array the grid walks. -/
theorem xb2_read (c : Dev nD) (t : Fin cfg0.N) (r q : Fin 1024) (a : Fin 2) (b : Fin 4096) (d : Fin 8192)
    (ha : a.val = t.val / 32) (hb : b.val = t.val / 8 % 4 * 1024 + r.val) (hd : d.val = t.val % 8 * 1024 + q.val) :
    xb2 m c t (ix3 0 r q) = (V m c main_call0_v26 : S2x4096x8192.Idx → EReal) (ix3 a b d) :=
  blk2_read (V m c main_call0_v26) t r q a b d ha hb hd

/-! ## The blocks are tiles of the arguments -/

/-- The first window's block at grid point `t`, read at `(0, r, q)`, is `A` at row `r`, column `q` of tile `t`. -/
theorem xb0_cell (c : Dev nD) (t : Fin cfg0.N) (r q : Fin 1024) :
    xb0 m c t (ix3 0 r q)
      = Amat m c (ix2 (Cert.Wsse.tileRow ⟨t.val, lt64 t⟩ r) (Cert.Wsse.tileCol ⟨t.val, lt64 t⟩ q)) := by
  have ht : t.val < 64 := lt64 t
  have hr := r.isLt
  have h0 : t.val / 32 < 2 := by omega
  have h1 : t.val / 8 % 4 * 1024 + r.val < 4096 := by omega
  have hrow : (Cert.Wsse.tileRow ⟨t.val, ht⟩ r).val
      = (⟨t.val / 32, h0⟩ : Fin 2).val * 4096 + (⟨t.val / 8 % 4 * 1024 + r.val, h1⟩ : Fin 4096).val := by
    show t.val / 32 * 4096 + t.val / 8 % 4 * 1024 + r.val = t.val / 32 * 4096 + (t.val / 8 % 4 * 1024 + r.val)
    omega
  exact (xb0_read m c t r q ⟨t.val / 32, h0⟩ ⟨t.val / 8 % 4 * 1024 + r.val, h1⟩
      (Cert.Wsse.tileCol ⟨t.val, ht⟩ q) rfl rfl rfl).trans
    ((congrFun (V_v24 m c) _).trans (halves_apply (Amat m c) _ _ _ (Cert.Wsse.tileRow ⟨t.val, ht⟩ r) hrow))

/-- The second window's block at grid point `t`, read at `(0, r, q)`, is `B` at row `r`, column `q` of tile `t`. -/
theorem xb1_cell (c : Dev nD) (t : Fin cfg0.N) (r q : Fin 1024) :
    xb1 m c t (ix3 0 r q)
      = Bmat m c (ix2 (Cert.Wsse.tileRow ⟨t.val, lt64 t⟩ r) (Cert.Wsse.tileCol ⟨t.val, lt64 t⟩ q)) := by
  have ht : t.val < 64 := lt64 t
  have hr := r.isLt
  have h0 : t.val / 32 < 2 := by omega
  have h1 : t.val / 8 % 4 * 1024 + r.val < 4096 := by omega
  have hrow : (Cert.Wsse.tileRow ⟨t.val, ht⟩ r).val
      = (⟨t.val / 32, h0⟩ : Fin 2).val * 4096 + (⟨t.val / 8 % 4 * 1024 + r.val, h1⟩ : Fin 4096).val := by
    show t.val / 32 * 4096 + t.val / 8 % 4 * 1024 + r.val = t.val / 32 * 4096 + (t.val / 8 % 4 * 1024 + r.val)
    omega
  exact (xb1_read m c t r q ⟨t.val / 32, h0⟩ ⟨t.val / 8 % 4 * 1024 + r.val, h1⟩
      (Cert.Wsse.tileCol ⟨t.val, ht⟩ q) rfl rfl rfl).trans
    ((congrFun (V_v25 m c) _).trans (halves_apply (Bmat m c) _ _ _ (Cert.Wsse.tileRow ⟨t.val, ht⟩ r) hrow))

/-- The third window's block at grid point `t`, read at `(0, r, q)`, is `W` at row `r`, column `q` of tile `t`. -/
theorem xb2_cell (c : Dev nD) (t : Fin cfg0.N) (r q : Fin 1024) :
    xb2 m c t (ix3 0 r q)
      = Wm m c (ix2 (Cert.Wsse.tileRow ⟨t.val, lt64 t⟩ r) (Cert.Wsse.tileCol ⟨t.val, lt64 t⟩ q)) := by
  have ht : t.val < 64 := lt64 t
  have hr := r.isLt
  have h0 : t.val / 32 < 2 := by omega
  have h1 : t.val / 8 % 4 * 1024 + r.val < 4096 := by omega
  have hrow : (Cert.Wsse.tileRow ⟨t.val, ht⟩ r).val
      = (⟨t.val / 32, h0⟩ : Fin 2).val * 4096 + (⟨t.val / 8 % 4 * 1024 + r.val, h1⟩ : Fin 4096).val := by
    show t.val / 32 * 4096 + t.val / 8 % 4 * 1024 + r.val = t.val / 32 * 4096 + (t.val / 8 % 4 * 1024 + r.val)
    omega
  exact (xb2_read m c t r q ⟨t.val / 32, h0⟩ ⟨t.val / 8 % 4 * 1024 + r.val, h1⟩
      (Cert.Wsse.tileCol ⟨t.val, ht⟩ q) rfl rfl rfl).trans
    ((congrFun (V_v26 m c) _).trans (halves_apply (Wm m c) _ _ _ (Cert.Wsse.tileRow ⟨t.val, ht⟩ r) hrow))

/-! ## A tile's sum -/

/-- Grid point `t`'s tile sum is the sum of the cells' contributions over tile `t` of the matrix. -/
theorem tile_eq (c : Dev nD) (t : Fin cfg0.N) :
    tileSum (xb0 m c t) (xb1 m c t) (xb2 m c t) = Cert.Wsse.tile (cellF m c) ⟨t.val, lt64 t⟩ := by
  unfold tileSum Cert.Wsse.tile
  refine Finset.sum_congr rfl fun r _ => Finset.sum_congr rfl fun q _ => ?_
  rw [xb0_cell m c t r q, xb1_cell m c t r q, xb2_cell m c t r q]
  rfl

end Cert.KernelIdeal.WVal

end
-- ==== Proof.KPieces.lean ====
/-
  What one run of the body leaves behind, as values.

  The body keeps a 1 × 1 running total in a scratch cell. At the first tile of a half it first stores zero there; then,
  always, it reads the cell, adds the tile's sum, stores the new total, reads it once more and stores it, broadcast over
  8 × 128, into the output block. So the scratch ends at "the total before (or zero) plus the tile's sum" and the output
  block at that value broadcast.
-/
import proofs.«415010_j58162447123174_3_alg».proof.Proof.Gen.KernelIdeal.Frame
import Idealize.ShloMosaic.Lib.Pipeline.Value
import Idealize.ShloMosaic.Lib.Tactic

noncomputable section

namespace Cert.KernelIdeal.WVal

open Idealize.ShloMosaic Idealize.ShloMosaic.TcCoe Idealize.SL.Sem
open Cert.KernelIdeal Cert.KernelIdeal.Gen

variable {F : FTy → Type} [FloatOps F]

/-- Zero offsets on two and on three axes, as the stores and loads of whole cells spell them. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole cell, after stores of which the last filled the whole cell, reads that last store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- First tile of a half: the scratch ends at the update of the freshly stored zero. -/
theorem sout_A (c : Dev nD) (i : grid0.Coords) (a3 : Memref sig .tc .vmem S1x1024x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1x8x128 .f32) (h6 : a6.IsWhole) (a7 : Memref sig .tc .vmem S1x1 .f32) (h7 : a7.IsWhole) (hc : cond0_0 i)
    (x0 x1 x2 : Vec F S1x1024x1024 .f32) :
    sout0_A_0 c i a3 h3 a4 h4 a5 h5 a6 h6 a7 h7 hc x0 x1 x2 = k0_pay2 x0 x1 x2 (k0_pay1 (F := F)) := by
  unfold sout0_A_0
  rw [View.read_writes_eq_canon _ _ _ (scover0_A_0 c i a3 h3 a4 h4 a5 h5 a6 h6 a7 h7 hc x0 x1 x2)]
  unfold kernelRun0_A
  dsimp only
  sl_unfold_words
  rw [View.canon_cons_unit_zero (S := S1x1) hz2]
  simp only [View.readCov_unit_zero (S := S1x1) _ hz2, View.readAt_eq_ld, h3.read_unread, h4.read_unread, h5.read_unread,
    h7.read_unread, View.ld_unit_zero (S := S1x1024x1024) hz3, View.ld_unit_zero (S := S1x1) hz2]

/-- First tile of a half: the output block ends at the broadcast of that total. -/
theorem out_A (c : Dev nD) (i : grid0.Coords) (a3 : Memref sig .tc .vmem S1x1024x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1x8x128 .f32) (h6 : a6.IsWhole) (a7 : Memref sig .tc .vmem S1x1 .f32) (h7 : a7.IsWhole) (hc : cond0_0 i)
    (x0 x1 x2 : Vec F S1x1024x1024 .f32) :
    out0_A_3 c i a3 h3 a4 h4 a5 h5 a6 h6 a7 h7 hc x0 x1 x2 = k0_pay3 (k0_pay2 x0 x1 x2 (k0_pay1 (F := F))) := by
  unfold out0_A_3
  rw [View.read_writes_eq_canon _ _ _ (cover0_A_3 c i a3 h3 a4 h4 a5 h5 a6 h6 a7 h7 hc x0 x1 x2)]
  unfold kernelRun0_A
  dsimp only
  sl_unfold_words
  rw [View.canon_unit_zero (S := S1x8x128) hz3, readCov_cons_unit_zero (S := S1x1) _ hz2]
  simp only [View.readCov_unit_zero (S := S1x1) _ hz2, View.readAt_eq_ld, h3.read_unread, h4.read_unread, h5.read_unread,
    h7.read_unread, View.ld_unit_zero (S := S1x1024x1024) hz3, View.ld_unit_zero (S := S1x1) hz2]

/-- Any other tile: the scratch, holding `xs` before, ends at the update of `xs`. -/
theorem sout_B (c : Dev nD) (i : grid0.Coords) (a3 : Memref sig .tc .vmem S1x1024x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1x8x128 .f32) (h6 : a6.IsWhole) (a7 : Memref sig .tc .vmem S1x1 .f32) (h7 : a7.IsWhole) (hc : ¬cond0_0 i)
    (x0 x1 x2 : Vec F S1x1024x1024 .f32) (xs : Vec F S1x1 .f32) :
    sout0_B_0 c i a3 h3 a4 h4 a5 h5 a6 h6 a7 h7 hc x0 x1 x2 xs = k0_pay2 x0 x1 x2 xs := by
  unfold sout0_B_0
  rw [View.read_writes_eq_canon _ _ _ (scover0_B_0 c i a3 h3 a4 h4 a5 h5 a6 h6 a7 h7 hc x0 x1 x2 xs)]
  unfold kernelRun0_B
  dsimp only
  sl_unfold_words
  rw [View.canon_unit_zero (S := S1x1) hz2]
  simp only [View.readCov_unit_zero (S := S1x1) _ hz2, View.readAt_eq_ld, h3.read_unread, h4.read_unread, h5.read_unread,
    h7.read_unread, View.ld_unit_zero (S := S1x1024x1024) hz3, View.ld_unit_zero (S := S1x1) hz2]

/-- Any other tile: the output block ends at the broadcast of that total. -/
theorem out_B (c : Dev nD) (i : grid0.Coords) (a3 : Memref sig .tc .vmem S1x1024x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1x8x128 .f32) (h6 : a6.IsWhole) (a7 : Memref sig .tc .vmem S1x1 .f32) (h7 : a7.IsWhole) (hc : ¬cond0_0 i)
    (x0 x1 x2 : Vec F S1x1024x1024 .f32) (xs : Vec F S1x1 .f32) :
    out0_B_3 c i a3 h3 a4 h4 a5 h5 a6 h6 a7 h7 hc x0 x1 x2 xs = k0_pay3 (k0_pay2 x0 x1 x2 xs) := by
  unfold out0_B_3
  rw [View.read_writes_eq_canon _ _ _ (cover0_B_3 c i a3 h3 a4 h4 a5 h5 a6 h6 a7 h7 hc x0 x1 x2 xs)]
  unfold kernelRun0_B
  dsimp only
  sl_unfold_words
  rw [View.canon_unit_zero (S := S1x8x128) hz3]
  simp only [View.readCov_unit_zero (S := S1x1) _ hz2, View.readAt_eq_ld, h3.read_unread, h4.read_unread, h5.read_unread,
    h7.read_unread, View.ld_unit_zero (S := S1x1024x1024) hz3, View.ld_unit_zero (S := S1x1) hz2]

end Cert.KernelIdeal.WVal

end
-- ==== Proof.KPayload.lean ====
/-
  The body's arithmetic over the extended reals, read at an index.

  The update of the running total is `xs + ∑ᵣ ∑_q (a − b)·(a − b)·w`: the lane reduction gives each row's sum, the second
  reduction adds the rows, and the reshapes between them only rename indices. The output payload is the 1 × 1 total
  broadcast to every entry of the block; the reset payload is zero.
-/
import proofs.«415010_j58162447123174_3_alg».proof.Proof.KDefs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.WVal

open Idealize.ShloMosaic Idealize.ShloMosaic.TcCoe Idealize.SL.Sem Idealize.ShloMosaic.ValueIdx
open Cert.KernelIdeal Cert.KernelIdeal.Gen
open scoped BigOperators

/-! ## The reshapes and the reductions' inserted indices, at coordinates -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane reduction's inserted index: row `r` with lane `k` put back. -/
private theorem lift_lane (r k : Fin 1024) : reduces_S1024x1024_S1024.lift (ix1 r) k = ix2 r k := by
  funext c
  match c with
  | ⟨0, _⟩ => exact Fin.ext rfl
  | ⟨1, _⟩ => exact Fin.ext rfl

/-- The row reduction's inserted index: the one column `q` with row `r` put back. -/
private theorem lift_rows (q : Fin 1) (r : Fin 1024) : reduces_S1024x1_S1.lift (ix1 q) r = ix2 r q := by
  funext c
  match c with
  | ⟨0, _⟩ => exact Fin.ext rfl
  | ⟨1, _⟩ => exact Fin.ext rfl

/-! ## The three payloads -/

/-- The reset payload is zero. -/
theorem pay1_apply (j : S1x1.Idx) : k0_pay1 (F := Ideal) j = 0 := by
  unfold k0_pay1
  rw [shapeCast_self]
  exact Ideal.ofBits_zero_f32

/-- The update payload: the total before plus the tile's sum. -/
theorem pay2_apply (x0 x1 x2 : Vec Ideal S1x1024x1024 .f32) (xs : Vec Ideal S1x1 .f32) (j : S1x1.Idx) :
    k0_pay2 x0 x1 x2 xs j = xs j + tileSum x0 x1 x2 := by
  obtain ⟨p, q, rfl⟩ : ∃ (p : Fin 1) (q : Fin 1), j = ix2 p q := ⟨j 0, j 1, eq_ix2 j⟩
  unfold k0_pay2
  rw [shapeCast_self, addf_apply]
  refine congrArg (xs (ix2 p q) + ·) ?_
  refine (shapeCast_a_1a_apply _ shapeCasts_S1_S1x1 p q).trans ?_
  refine (Ideal.multiReduction_add_single _ 0x00000000#32 reduces_S1024x1_S1 _ _ (ix1 q)).trans ?_
  unfold tileSum
  refine Finset.sum_congr rfl fun (r : Fin 1024) _ => ?_
  rw [lift_rows q r]
  refine (shapeCast_a_a1_apply _ shapeCasts_S1024_S1024x1 r q).trans ?_
  refine (Ideal.multiReduction_add_single _ 0x00000000#32 reduces_S1024x1024_S1024 _ _ (ix1 r)).trans ?_
  refine Finset.sum_congr rfl fun (k : Fin 1024) _ => ?_
  rw [lift_lane r k, mulf_apply, mulf_apply, subf_apply,
    shapeCast_1ab_ab_apply x0, shapeCast_1ab_ab_apply x1, shapeCast_1ab_ab_apply x2]

/-- The output payload: the 1 × 1 total at every entry of the block. -/
theorem pay3_apply (v : Vec Ideal S1x1 .f32) (j : S1x8x128.Idx) : k0_pay3 v j = v (ix2 0 0) := by
  obtain ⟨u, a, b, rfl⟩ : ∃ (u : Fin 1) (a : Fin 8) (b : Fin 128), j = ix3 u a b := ⟨j 0, j 1, j 2, eq_ix3 j⟩
  unfold k0_pay3
  rw [shapeCast_self]
  refine (shapeCast_ab_1ab_apply _ shapeCasts_S8x128_S1x8x128 u a b).trans ?_
  refine broadcastTo_apply v broadcasts_S1x1_S8x128 (ix2 a b) (ix2 0 0) fun ax => ?_
  match ax with
  | ⟨0, _⟩ => rfl
  | ⟨1, _⟩ => rfl

end Cert.KernelIdeal.WVal

end
-- ==== Proof.KAcc.lean ====
/-
  The running total, point by point.

  After grid point `n` both the scratch cell and every entry of the output block hold `acc n`: by induction on the
  point, with the two cases of the body (first tile of a half, any other tile) read as values.
-/
import proofs.«415010_j58162447123174_3_alg».proof.Proof.KDefs
import proofs.«415010_j58162447123174_3_alg».proof.Proof.KPieces
import proofs.«415010_j58162447123174_3_alg».proof.Proof.KPayload

noncomputable section

namespace Cert.KernelIdeal.WVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- A first tile of a half: the scratch cell and the output block hold zero plus the tile's sum. -/
private theorem step_A (c : Dev nD) (t : Fin cfg0.N) (h0 : t.val % 32 = 0) :
    (outsAt0 m c t.val t.isLt).2 = (fun _ => 0 + tileSum (xb0 m c t) (xb1 m c t) (xb2 m c t))
      ∧ (outsAt0 m c t.val t.isLt).1 = (fun _ => 0 + tileSum (xb0 m c t) (xb1 m c t) (xb2 m c t)) := by
  rw [outsAt0_A m c t h0]
  dsimp only
  rw [sout_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
    out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  refine ⟨funext fun j => ?_, funext fun j => ?_⟩
  · rw [pay2_apply, pay1_apply]
  · rw [pay3_apply, pay2_apply, pay1_apply]

/-- Any other tile: both hold what the scratch cell held before plus the tile's sum. -/
private theorem step_B (c : Dev nD) (t : Fin cfg0.N) (h0 : ¬t.val % 32 = 0) (a : EReal)
    (hp : (outsAt0 m c (t.val - 1) (Nat.lt_of_le_of_lt (Nat.sub_le _ _) t.isLt)).2 = fun _ => a) :
    (outsAt0 m c t.val t.isLt).2 = (fun _ => a + tileSum (xb0 m c t) (xb1 m c t) (xb2 m c t))
      ∧ (outsAt0 m c t.val t.isLt).1 = (fun _ => a + tileSum (xb0 m c t) (xb1 m c t) (xb2 m c t)) := by
  rw [outsAt0_B m c t h0]
  dsimp only
  rw [hp]
  rw [sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (fun _ => a),
    out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (fun _ => a)]
  refine ⟨funext fun j => ?_, funext fun j => ?_⟩
  · rw [pay2_apply]
  · rw [pay3_apply, pay2_apply]

/-- After point `n` the scratch cell and the output block hold the running total. -/
theorem outsAt_eq (c : Dev nD) (n : ℕ) (h : n < cfg0.N) :
    (outsAt0 m c n h).2 = (fun _ => acc m c n h) ∧ (outsAt0 m c n h).1 = (fun _ => acc m c n h) := by
  induction n with
  | zero => exact step_A m c ⟨0, h⟩ rfl
  | succ n ih =>
    by_cases h0 : (n + 1) % 32 = 0
    · have e : acc m c (n + 1) h = 0 + tileSum (xb0 m c ⟨n + 1, h⟩) (xb1 m c ⟨n + 1, h⟩) (xb2 m c ⟨n + 1, h⟩) := by
        rw [acc, if_pos h0]
      rw [e]
      exact step_A m c ⟨n + 1, h⟩ h0
    · have e : acc m c (n + 1) h = acc m c n (Nat.lt_of_succ_lt h)
          + tileSum (xb0 m c ⟨n + 1, h⟩) (xb1 m c ⟨n + 1, h⟩) (xb2 m c ⟨n + 1, h⟩) := by
        rw [acc, if_neg h0]
      rw [e]
      exact step_B m c ⟨n + 1, h⟩ h0 (acc m c n (Nat.lt_of_succ_lt h)) (ih (Nat.lt_of_succ_lt h)).1

end Cert.KernelIdeal.WVal

end
-- ==== Proof.KFinal.lean ====
/-
  From the running total to the program's result.

  The output block of a half is written back once, after the half's last tile, so the output array's half `h` ends at
  the running total after point `32·h + 31`, at every entry. The host then picks entry (0, 0, 0) and entry (1, 0, 0) and
  adds them.
-/
import proofs.«415010_j58162447123174_3_alg».proof.Proof.KDefs
import proofs.«415010_j58162447123174_3_alg».proof.Proof.KAcc
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.WVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The running total does not depend on how its point is written, nor on the evidence that the point is in the grid. -/
private theorem acc_point_congr (c : Dev nD) {n n' : ℕ} (e : n = n') (h : n < cfg0.N) (h' : n' < cfg0.N) :
    acc m c n h = acc m c n' h' := by
  subst e; rfl

/-- The output array as one function of its index: half `h` holds, at every entry, the running total after the
    half's last point `32·h + 31`. -/
private def outHalves (c : Dev nD) : FVec Ideal S2x8x128 .f32 := fun j =>
  acc m c (32 * (j 0).val + 31) (by rw [N64]; have h : (j 0).val < 2 := (j 0).isLt; omega)

/-- The output window's block index at a point: the point's half, then zero on the two entry axes. -/
private theorem outIndex : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- The output window's block is one half: 1 × 8 × 128, never cut. -/
private theorem outSize : win0_3.size 0 = 1 ∧ win0_3.size 1 = 8 ∧ win0_3.size 2 = 128 := by decide

/-- What a write-back moves at a point has those same extents: the array's end never cuts the block. -/
private theorem outXsize : ∀ t : Fin cfg0.N, win0_3.xsize (grid0.coords t) 0 = 1 ∧ win0_3.xsize (grid0.coords t) 1 = 8
    ∧ win0_3.xsize (grid0.coords t) 2 = 128 :=
  (by decide +kernel : ∀ t : Fin grid0.N, win0_3.xsize (grid0.coords t) 0 = 1 ∧ win0_3.xsize (grid0.coords t) 1 = 8
    ∧ win0_3.xsize (grid0.coords t) 2 = 128)

/-- What a flushing point writes back is its block of the output array: at the last point of a half the running total
    is the half's, and the block written is that half. -/
private theorem outFlushed_eq (c : Dev nD) (t : Fin cfg0.N) (hf : (cfg0.win 3).flush t = true) :
    (dats m 0 c).flushed 3 t = ((cfg0.win 3).blk t).view.read (Elt Ideal) (outHalves m c) := by
  have h31 : t.val % 32 = 31 := (flush0_3 t).mp hf
  have hN : t.val < 64 := lt64 t
  show (cfg0.win 3).cut (grid0.coords t) ((dats m 0 c).after 3 t) = _
  rw [after0_3, (outsAt_eq m c t.val t.isLt).2]
  funext y
  rw [View.read_apply]
  show acc m c t.val t.isLt = outHalves m c ((win0_3.rect t).emb y)
  unfold outHalves
  have hy : ((win0_3.rect t).emb y 0 : ℕ) = t.val / 32 := by
    have hy0 : (y 0 : ℕ) < 1 := lt_of_lt_of_eq (y 0).isLt (outXsize t).1
    rw [Pipeline.Window.rect_emb_val, (outIndex t).1, outSize.1]; omega
  exact acc_point_congr m c (by rw [hy]; omega) _ _

/-- Every entry of the output array lies in the block written back at the last point of the entry's half. -/
private theorem outCover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 2 := (i 0).isLt
  have h1 : (i 1 : ℕ) < 8 := (i 1).isLt
  have h2 : (i 2 : ℕ) < 128 := (i 2).isLt
  have hlt : 32 * (i 0 : ℕ) + 31 < cfg0.N := by rw [N64]; omega
  refine ⟨⟨32 * (i 0 : ℕ) + 31, hlt⟩, (flush0_3 _).mpr (by show (32 * (i 0 : ℕ) + 31) % 32 = 31; omega), ?_⟩
  show i ∈ ((View.whole main_call0_v27).slice (win0_3.rect ⟨32 * (i 0 : ℕ) + 31, hlt⟩)).set
  rw [View.set_slice_whole, Rect.mem_set_unit]
  obtain ⟨e0, e1, e2⟩ := outIndex ⟨32 * (i 0 : ℕ) + 31, hlt⟩
  obtain ⟨x0, x1, x2⟩ := outXsize ⟨32 * (i 0 : ℕ) + 31, hlt⟩
  obtain ⟨s0, s1, s2⟩ := outSize
  dsimp only at e0
  intro a
  match a with
  | ⟨0, _⟩ =>
    show win0_3.index ⟨32 * (i 0 : ℕ) + 31, hlt⟩ 0 * win0_3.size 0 ≤ (i 0 : ℕ)
      ∧ (i 0 : ℕ) < win0_3.index ⟨32 * (i 0 : ℕ) + 31, hlt⟩ 0 * win0_3.size 0 + win0_3.xsize (grid0.coords ⟨32 * (i 0 : ℕ) + 31, hlt⟩) 0
    rw [e0, s0, x0]; omega
  | ⟨1, _⟩ =>
    show win0_3.index ⟨32 * (i 0 : ℕ) + 31, hlt⟩ 1 * win0_3.size 1 ≤ (i 1 : ℕ)
      ∧ (i 1 : ℕ) < win0_3.index ⟨32 * (i 0 : ℕ) + 31, hlt⟩ 1 * win0_3.size 1 + win0_3.xsize (grid0.coords ⟨32 * (i 0 : ℕ) + 31, hlt⟩) 1
    rw [e1, s1, x1]; omega
  | ⟨2, _⟩ =>
    show win0_3.index ⟨32 * (i 0 : ℕ) + 31, hlt⟩ 2 * win0_3.size 2 ≤ (i 2 : ℕ)
      ∧ (i 2 : ℕ) < win0_3.index ⟨32 * (i 0 : ℕ) + 31, hlt⟩ 2 * win0_3.size 2 + win0_3.xsize (grid0.coords ⟨32 * (i 0 : ℕ) + 31, hlt⟩) 2
    rw [e2, s2, x2]; omega

/-- So the output array ends holding, in each half, that half's total at every entry. -/
private theorem outFinal (c : Dev nD) : (dats m 0 c).arrAt 3 cfg0.N = outHalves m c :=
  (dats m 0 c).arrAt_eq_of_cover 3 (outHalves m c) (outFlushed_eq m c) (outCover c)

/-- The host's tail over any output array: the unit slice at (0, 0, 0) and the unit slice at (1, 0, 0), each read as a
    scalar, added: entry (0, 0, 0) plus entry (1, 0, 0). -/
private theorem tailRead (X : FVec Ideal S2x8x128 .f32) :
    addf (shapeCast S_ (extractStridedSlice S1x1x1 ![0, 0, 0] X slices_S2x8x128_S1x1x1_0_0_0) shapeCasts_S1x1x1_S_)
        (shapeCast S_ (extractStridedSlice S1x1x1 ![1, 0, 0] X slices_S2x8x128_S1x1x1_1_0_0) shapeCasts_S1x1x1_S_)
      = fun _ => X (ix3 (0 : Fin 2) (0 : Fin 8) (0 : Fin 128)) + X (ix3 (1 : Fin 2) (0 : Fin 8) (0 : Fin 128)) := by
  funext i
  have e1 : (S1x1x1.rowMajor (ix3 (0 : Fin 1) (0 : Fin 1) (0 : Fin 1))).val = (S_.rowMajor i).val := by
    have a : (S1x1x1.rowMajor (ix3 (0 : Fin 1) (0 : Fin 1) (0 : Fin 1))).val < 1 :=
      lt_of_lt_of_eq (S1x1x1.rowMajor (ix3 (0 : Fin 1) (0 : Fin 1) (0 : Fin 1))).isLt (by decide)
    have b : (S_.rowMajor i).val < 1 := lt_of_lt_of_eq (S_.rowMajor i).isLt (by decide)
    omega
  rw [addf_apply,
    shapeCast_apply _ shapeCasts_S1x1x1_S_ i (ix3 (0 : Fin 1) (0 : Fin 1) (0 : Fin 1)) e1,
    shapeCast_apply _ shapeCasts_S1x1x1_S_ i (ix3 (0 : Fin 1) (0 : Fin 1) (0 : Fin 1)) e1,
    extractStridedSlice_apply ![0, 0, 0] X slices_S2x8x128_S1x1x1_0_0_0 (ix3 (0 : Fin 1) (0 : Fin 1) (0 : Fin 1))
      (ix3 (0 : Fin 2) (0 : Fin 8) (0 : Fin 128)) (fun a => match a with | ⟨0, _⟩ => rfl | ⟨1, _⟩ => rfl | ⟨2, _⟩ => rfl),
    extractStridedSlice_apply ![1, 0, 0] X slices_S2x8x128_S1x1x1_1_0_0 (ix3 (0 : Fin 1) (0 : Fin 1) (0 : Fin 1))
      (ix3 (1 : Fin 2) (0 : Fin 8) (0 : Fin 128)) (fun a => match a with | ⟨0, _⟩ => rfl | ⟨1, _⟩ => rfl | ⟨2, _⟩ => rfl)]

/-- The host's tail on the run's output array: the first half's total plus the second half's. -/
private theorem tailResult (c : Dev nD) :
    Pipeline.afterTail₀ cfgs (dats m) 0 (V0 m) [hostOps1] c main_v0
      = (fun _ => acc m c 31 (by rw [N64]; decide) + acc m c 63 (by rw [N64]; decide)) := by
  unfold Pipeline.afterTail₀
  show StableHlo.after hostOps1 _ (Proc.devRef .tc main_v0) = _
  after_results
  refine (tailRead (Pipeline.withArrays spec0 c (V0 m c) (fun w => (dats m 0 c).arrAt w cfg0.N)
    (Proc.devRef .tc (Pipeline.arrRef spec0 3)))).trans ?_
  rw [(Pipeline.withArrays_arr spec0 launch0.win.arr_inj c (V0 m c) (fun w => (dats m 0 c).arrAt w cfg0.N) 3).trans (outFinal m c)]
  funext _
  show acc m c (32 * 0 + 31) _ + acc m c (32 * 1 + 31) _ = _
  exact congrArg₂ (· + ·) (acc_point_congr m c (show 32 * 0 + 31 = 31 from rfl) _ _)
    (acc_point_congr m c (show 32 * 1 + 31 = 63 from rfl) _ _)

/-- Every weakly fair execution terminates with the result at the first half's total plus the second half's total,
    the arguments unchanged. -/
theorem run_acc : θ_run defs (onTc (τ := τ) (main (F := Ideal))) ⟨m, fun _ => 0, ρ⟩ (fun r => ∀ c : Dev nD,
      r.2.mem ((c.tc : Thread nD τ).loc main_v0)
        = (fun _ => acc m c 31 (by rw [N64]; decide) + acc m c 63 (by rw [N64]; decide))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (tailResult m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.WVal

end
-- ==== Proof.TileSum.lean ====
/-
  Summing tile by tile is summing over the whole matrix.

  The 64 grid points are two halves of 32 tiles; a half's running total starts afresh at its first tile. The total
  after the last tile of the first half plus the total after the last tile of the second half is the sum over all
  8192 × 8192 cells: the tiles partition the matrix, and addition of extended reals is commutative and associative
  (no finiteness is needed to regroup a sum).
-/
import proofs.«415010_j58162447123174_3_alg».proof.Proof.Spec
import Mathlib.Algebra.BigOperators.Fin
import Mathlib.Data.Fintype.BigOperators
import Mathlib.Logic.Equiv.Fin.Basic

noncomputable section

namespace Cert.Wsse

open Idealize.ShloMosaic Idealize.ShloMosaic.ValueIdx
open scoped BigOperators

/-! ## The running total is the sum of its half's tiles so far -/

/-- A grid point's tile as a function of the bare number: zero past the last point. -/
private def tileN (f : Fin 8192 → Fin 8192 → EReal) (t : ℕ) : EReal := if h : t < 64 then tile f ⟨t, h⟩ else 0

/-- After point `n` the running total is the sum of the tiles from the first point of `n`'s half through `n`. -/
private theorem accum_eq (f : Fin 8192 → Fin 8192 → EReal) : ∀ (n : ℕ) (h : n < 64),
    accum f n h = ∑ u ∈ Finset.range (n % 32 + 1), tileN f (n - n % 32 + u)
  | 0, h => by
    show 0 + tile f ⟨0, h⟩ = ∑ u ∈ Finset.range 1, tileN f (0 + u)
    rw [Finset.sum_range_one, zero_add, Nat.add_zero, tileN, dif_pos h]
  | n + 1, h => by
    have ih := accum_eq f n (Nat.lt_of_succ_lt h)
    rw [accum]
    by_cases hm : (n + 1) % 32 = 0
    · rw [if_pos hm, hm, zero_add, Finset.sum_range_one]
      show tile f ⟨n + 1, h⟩ = tileN f (n + 1)
      rw [tileN, dif_pos h]
    · have e1 : (n + 1) % 32 = n % 32 + 1 := by omega
      have e2 : n + 1 - (n + 1) % 32 = n - n % 32 := by omega
      have e3 : n - n % 32 + (n % 32 + 1) = n + 1 := by omega
      rw [if_neg hm, e2, e1, Finset.sum_range_succ, ← ih, e3, tileN, dif_pos h]

/-- The two halves' totals together are the sum of all 64 tiles. -/
private theorem accum_halves (f : Fin 8192 → Fin 8192 → EReal) :
    accum f 31 (by decide) + accum f 63 (by decide) = ∑ t : Fin 64, tile f t := by
  rw [accum_eq f 31 (by decide), accum_eq f 63 (by decide)]
  show ∑ u ∈ Finset.range 32, tileN f (0 + u) + ∑ u ∈ Finset.range 32, tileN f (32 + u) = _
  simp only [Nat.zero_add]
  rw [← Finset.sum_range_add (tileN f) 32 32, Finset.sum_range]
  exact Finset.sum_congr rfl fun t _ => by rw [tileN, dif_pos t.isLt]

/-! ## The tiles partition the matrix -/

/-- Coordinate `r` of block `i` on an axis of 8 blocks of 1024. -/
private def blk (i : Fin 8) (r : Fin 1024) : Fin 8192 := ⟨i.val * 1024 + r.val, by omega⟩

/-- A sum over an axis of 8192 is the sum over its 8 blocks of the sums inside each block. -/
private theorem sum_blk {M : Type*} [AddCommMonoid M] (H : Fin 8192 → M) :
    ∑ a : Fin 8192, H a = ∑ i : Fin 8, ∑ r : Fin 1024, H (blk i r) := by
  have e := Equiv.sum_comp (finProdFinEquiv (m := 8) (n := 1024)) (fun a : Fin (8 * 1024) => H a)
  rw [Fintype.sum_prod_type] at e
  refine e.symm.trans ?_
  refine Finset.sum_congr rfl fun i _ => Finset.sum_congr rfl fun r _ => congrArg H (Fin.ext ?_)
  show r.val + 1024 * i.val = i.val * 1024 + r.val
  omega

/-- Grid point `8 i + j` covers block row `i` and block column `j`. -/
private theorem tileRow_blk (i j : Fin 8) (r : Fin 1024) : tileRow (finProdFinEquiv (i, j)) r = blk i r := by
  apply Fin.ext
  show ((j.val + 8 * i.val) / 32) * 4096 + ((j.val + 8 * i.val) / 8 % 4) * 1024 + r.val = i.val * 1024 + r.val
  omega

private theorem tileCol_blk (i j : Fin 8) (q : Fin 1024) : tileCol (finProdFinEquiv (i, j)) q = blk j q := by
  apply Fin.ext
  show ((j.val + 8 * i.val) % 8) * 1024 + q.val = j.val * 1024 + q.val
  omega

/-- The 64 tiles together are the whole matrix. -/
private theorem sum_tiles (f : Fin 8192 → Fin 8192 → EReal) :
    ∑ t : Fin 64, tile f t = ∑ a : Fin 8192, ∑ b : Fin 8192, f a b := by
  have e := Equiv.sum_comp (finProdFinEquiv (m := 8) (n := 8)) (fun t : Fin (8 * 8) => tile f t)
  rw [Fintype.sum_prod_type] at e
  refine e.symm.trans ?_
  rw [sum_blk fun a => ∑ b : Fin 8192, f a b]
  refine Finset.sum_congr rfl fun i _ => ?_
  have step : ∀ j : Fin 8, tile f (finProdFinEquiv (i, j)) = ∑ r : Fin 1024, ∑ q : Fin 1024, f (blk i r) (blk j q) := fun j =>
    Finset.sum_congr rfl fun r _ => Finset.sum_congr rfl fun q _ => by rw [tileRow_blk, tileCol_blk]
  rw [Finset.sum_congr rfl fun j _ => step j, Finset.sum_comm]
  exact Finset.sum_congr rfl fun r _ => (sum_blk fun b => f (blk i r) b).symm

/-- The two halves' totals add up to the sum over every cell. -/
theorem accum_total (f : Fin 8192 → Fin 8192 → EReal) :
    accum f 31 (by decide) + accum f 63 (by decide) = ∑ a : Fin 8192, ∑ b : Fin 8192, f a b :=
  (accum_halves f).trans (sum_tiles f)

end Cert.Wsse

end
-- ==== Proof.KValue.lean ====
/-
  The scattering program's result: the weighted sum over all cells.

  The running total is the tile-by-tile total of the cells' contributions (each grid point's tile sum is the sum over
  the matching tile of the matrix), the two halves' totals add up to the sum over every cell, and a sum over the
  matrix's index set is the double sum over rows and columns.
-/
import proofs.«415010_j58162447123174_3_alg».proof.Proof.KDefs
import proofs.«415010_j58162447123174_3_alg».proof.Proof.KBlocks
import proofs.«415010_j58162447123174_3_alg».proof.Proof.KFinal
import proofs.«415010_j58162447123174_3_alg».proof.Proof.TileSum

noncomputable section

namespace Cert.KernelIdeal.WVal

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ) (ρ : Dev nD → PrngReg)

/-- The running total is the tile-by-tile total of the cells' contributions. -/
theorem acc_eq (c : Dev nD) : ∀ (n : ℕ) (h : n < cfg0.N),
    acc m c n h = Cert.Wsse.accum (cellF m c) n (lt_of_lt_of_eq h N64)
  | 0, h => by
    show 0 + tileSum (xb0 m c ⟨0, h⟩) (xb1 m c ⟨0, h⟩) (xb2 m c ⟨0, h⟩) = 0 + Cert.Wsse.tile (cellF m c) ⟨0, _⟩
    rw [tile_eq m c ⟨0, h⟩]
  | n + 1, h => by
    unfold acc Cert.Wsse.accum
    by_cases h0 : (n + 1) % 32 = 0
    · rw [if_pos h0, if_pos h0, tile_eq m c ⟨n + 1, h⟩]
    · rw [if_neg h0, if_neg h0, tile_eq m c ⟨n + 1, h⟩, acc_eq c n (Nat.lt_of_succ_lt h)]

/-- The weighted sum over the matrix's index set is the double sum over rows and columns. -/
theorem weighted_rows_cols (c : Dev nD) :
    Cert.Wsse.weighted (Amat m c) (Bmat m c) (Wm m c) = ∑ a : Fin 8192, ∑ b : Fin 8192, cellF m c a b := by
  unfold Cert.Wsse.weighted cellF
  exact sum_idx2 (fun i => Cert.Wsse.sqd (Amat m c) (Bmat m c) i * Wm m c i)

/-- Every weakly fair execution terminates with the result at the weighted sum over all cells, the arguments
    unchanged. -/
theorem run_weighted : θ_run defs (onTc (τ := τ) (main (F := Ideal))) ⟨m, fun _ => 0, ρ⟩ (fun r => ∀ c : Dev nD,
      r.2.mem ((c.tc : Thread nD τ).loc main_v0) = (fun _ => Cert.Wsse.weighted (Amat m c) (Bmat m c) (Wm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (by
      rw [weighted_rows_cols, ← Cert.Wsse.accum_total, acc_eq m c 31, acc_eq m c 63]), (h c).2⟩) (run_acc m ρ)

end Cert.KernelIdeal.WVal

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.LibGatherScatter.lean ====
/-
  A gather of single cells and a scatter of single updates, read at a position.

  * A gather of 1 × 1 slices of a matrix `[N, M]` at a table `[n, 2]` of start indices (both axes collapsed, no
    batching, index vector along the table's rows) reads, at position `k`, the matrix at the cell whose coordinates
    are the two words of row `k`, each read signed and kept inside its axis — for any sizes and any index width.
  * An update of a scatter lands on the cell `c` as soon as, on every axis, its start plus its window coordinate is
    the coordinate of `c` — for any dimension numbers; the range check the scatter makes is then met by itself.
-/
import Idealize.ShloMosaic.PureOps
import Idealize.ShloMosaic.Lib.ValueIdx

noncomputable section

namespace Cert.LibGatherScatter

open Idealize.ShloMosaic Idealize.ShloMosaic.ValueIdx

/-- A gather of single cells of a matrix at a two-column table of start indices reads, at row `k`, the matrix at the
    cell whose coordinates are the row's two words `r` and `c`, each read signed and kept inside its axis. -/
theorem gather_pair {α : Type} {N M n w : Nat} (hN : 0 < N) (hM : 0 < M)
    (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (X : (⟨2, ![N, M]⟩ : Shape).Idx → α) (idx : IVec ⟨2, ![n, 2]⟩ w) (k : Fin n)
    (r c : BitVec w) (hr : idx (ix2 k 0) = r) (hc : idx (ix2 k 1) = c) :
    Host.gather d X idx (ix1 k)
      = X (ix2 ⟨min r.toInt.toNat (N - 1), by omega⟩ ⟨min c.toInt.toNat (M - 1), by omega⟩) := by
  subst hr hc
  unfold Host.gather
  refine congrArg X (funext fun a => Fin.ext ?_)
  have hall : ∀ a : Fin 2, a ∈ ([0, 1] : List (Fin 2)) := fun a => by
    match a with
    | ⟨0, _⟩ => exact List.mem_cons_self
    | ⟨1, _⟩ => exact List.mem_cons_of_mem _ List.mem_cons_self
  -- both axes are collapsed and start-indexed; neither is a batching axis
  have hb : a ∉ d.operandBatchingDims := by rw [hob]; exact List.not_mem_nil
  have hk : a ∉ d.sKept := fun h => ((d.mem_sKept a).1 h).1 (by rw [hcoll]; exact hall a)
  have hm : a ∈ d.startIndexMap := by rw [hsim]; exact hall a
  have hsl : d.sliceSizes a = 1 := d.slice_collapsed a (by rw [hcoll]; exact hall a)
  -- the table's index for component `q` of row `k`'s start index is `(k, q)`
  have hsi : ∀ (p : Fin d.startIndexMap.length) (q : Fin 2), p.val = q.val → d.siIdx (ix1 k) p = ix2 k q := by
    intro p q hp
    funext b
    match b with
    | ⟨0, _⟩ =>
      unfold GatherDims.siIdx
      rw [dif_neg (by rw [hivd]; simp)]
      unfold GatherDims.siCoord
      apply Fin.ext
      simp only [Fin.val_cast]
      have e : ∀ z : Fin 1, ((ix1 k : (⟨1, ![n]⟩ : Shape).Idx) z).val = k.val := fun z => by
        obtain rfl : z = 0 := Subsingleton.elim _ _
        rfl
      exact e _
    | ⟨1, _⟩ =>
      unfold GatherDims.siIdx
      rw [dif_pos (by rw [hivd])]
      exact Fin.ext hp
  simp only [GatherDims.operandIdx, GatherDims.batchCoord_eq_zero _ _ _ hb, GatherDims.offCoord_eq_zero _ _ _ hk,
    Nat.add_zero, GatherDims.start, dif_pos hm]
  rw [hsl]
  match a with
  | ⟨0, _⟩ =>
    rw [hsi _ 0 (by show List.idxOf (0 : Fin 2) d.startIndexMap = 0; rw [hsim]; rfl)]
    rfl
  | ⟨1, _⟩ =>
    rw [hsi _ 1 (by show List.idxOf (1 : Fin 2) d.startIndexMap = 1; rw [hsim]; rfl)]
    rfl

/-- An update whose start plus window coordinate is, on every axis, the coordinate of the cell `c`, lands on `c`. -/
theorem resultIdx?_eq_some {s si u : Shape} (d : ScatterDims s si u) {w : ℕ} (j : u.Idx) (idx : IVec si w) (c : s.Idx)
    (h : ∀ a, d.start j idx a + (d.window j a : ℕ) = ((c a).val : ℤ)) :
    d.resultIdx? j idx = some c := by
  have hall : ∀ a, 0 ≤ d.start j idx a + (d.window j a : ℕ) ∧ d.start j idx a + (d.window j a : ℕ) < (s.size a : ℕ) :=
    fun a => by
      rw [h a]
      exact ⟨Int.natCast_nonneg _, Int.ofNat_lt.2 (c a).isLt⟩
  unfold ScatterDims.resultIdx?
  rw [dif_pos hall]
  refine congrArg some (funext fun a => Fin.ext ?_)
  show (d.start j idx a + (d.window j a : ℕ)).toNat = (c a).val
  rw [h a]
  exact Int.toNat_natCast _

end Cert.LibGatherScatter

end
-- ==== Proof.RefValue.lean ====
/-
  The gathering program's result is the quantity.

  Each gather reads its matrix at the cell the position's index pair names: the pair is (row word, column word), each
  normalised, read signed and kept inside the axis — which is how a gather treats its start indices. The rest is the
  program's own arithmetic: subtract, square, sum from zero, and the two weighted sums added.
-/
import proofs.«415010_j58162447123174_3_alg».proof.Proof.Gen.ReferenceIdeal.Run
import proofs.«415010_j58162447123174_3_alg».proof.Proof.Gen.ReferenceIdeal.Read
import proofs.«415010_j58162447123174_3_alg».proof.Proof.Spec
import proofs.«415010_j58162447123174_3_alg».proof.Proof.LibRowOps
import proofs.«415010_j58162447123174_3_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RVal

open Idealize.ShloMosaic Idealize.ShloMosaic.ValueIdx
open Cert.ReferenceIdeal Cert.ReferenceIdeal.Gen Cert.ReferenceIdeal.Read
open scoped BigOperators
open Cert.LibGatherScatter (gather_pair)

/-! ## The four tables of start indices

Each table is the two lists of index words, normalised, side by side: row `k` is (row word, column word) of position `k`.
The program builds the table of the positive positions twice (once per matrix), and the negative one twice. -/

theorem v13_at (px py : IVec S2000000 32) (k : Fin 2000000) (q : Fin 2) :
    val_main_v13 (F := Ideal) px py (ix2 k q) = ![Cert.Wsse.norm (px (ix1 k)), Cert.Wsse.norm (py (ix1 k))] q := by
  have e0 : idx_main_v11 (ix2 k (0 : Fin 1)) = ix1 k := funext fun a => by match a with | ⟨0, _⟩ => rfl
  have e1 : idx_main_v12 (ix2 k (0 : Fin 1)) = ix1 k := funext fun a => by match a with | ⟨0, _⟩ => rfl
  unfold val_main_v13
  refine (Cert.LibRowOps.cat2_apply (n := 2000000) _ _ _ k q).trans ?_
  rw [val_main_v11_apply, val_main_v12_apply, e0, e1, val_main_v5_apply, val_main_v10_apply, val_main_v2_apply,
    val_main_v7_apply, val_main_v4_apply, val_main_v9_apply, val_main_v1_apply, val_main_v6_apply, val_main_v3_apply,
    val_main_v8_apply, val_main_c_apply, val_main_c_1_apply, val_main_c_0_apply, val_main_c_2_apply]
  rfl

theorem v27_at (px py : IVec S2000000 32) (k : Fin 2000000) (q : Fin 2) :
    val_main_v27 (F := Ideal) px py (ix2 k q) = ![Cert.Wsse.norm (px (ix1 k)), Cert.Wsse.norm (py (ix1 k))] q := by
  have e0 : idx_main_v25 (ix2 k (0 : Fin 1)) = ix1 k := funext fun a => by match a with | ⟨0, _⟩ => rfl
  have e1 : idx_main_v26 (ix2 k (0 : Fin 1)) = ix1 k := funext fun a => by match a with | ⟨0, _⟩ => rfl
  unfold val_main_v27
  refine (Cert.LibRowOps.cat2_apply (n := 2000000) _ _ _ k q).trans ?_
  rw [val_main_v25_apply, val_main_v26_apply, e0, e1, val_main_v19_apply, val_main_v24_apply, val_main_v16_apply,
    val_main_v21_apply, val_main_v18_apply, val_main_v23_apply, val_main_v15_apply, val_main_v20_apply, val_main_v17_apply,
    val_main_v22_apply, val_main_c_3_apply, val_main_c_5_apply, val_main_c_4_apply, val_main_c_6_apply]
  rfl

theorem v42_at (nx ny : IVec S8000000 32) (k : Fin 8000000) (q : Fin 2) :
    val_main_v42 (F := Ideal) nx ny (ix2 k q) = ![Cert.Wsse.norm (nx (ix1 k)), Cert.Wsse.norm (ny (ix1 k))] q := by
  have e0 : idx_main_v40 (ix2 k (0 : Fin 1)) = ix1 k := funext fun a => by match a with | ⟨0, _⟩ => rfl
  have e1 : idx_main_v41 (ix2 k (0 : Fin 1)) = ix1 k := funext fun a => by match a with | ⟨0, _⟩ => rfl
  unfold val_main_v42
  refine (Cert.LibRowOps.cat2_apply (n := 8000000) _ _ _ k q).trans ?_
  rw [val_main_v40_apply, val_main_v41_apply, e0, e1, val_main_v34_apply, val_main_v39_apply, val_main_v31_apply,
    val_main_v36_apply, val_main_v33_apply, val_main_v38_apply, val_main_v30_apply, val_main_v35_apply, val_main_v32_apply,
    val_main_v37_apply, val_main_c_7_apply, val_main_c_9_apply, val_main_c_8_apply, val_main_c_10_apply]
  rfl

theorem v56_at (nx ny : IVec S8000000 32) (k : Fin 8000000) (q : Fin 2) :
    val_main_v56 (F := Ideal) nx ny (ix2 k q) = ![Cert.Wsse.norm (nx (ix1 k)), Cert.Wsse.norm (ny (ix1 k))] q := by
  have e0 : idx_main_v54 (ix2 k (0 : Fin 1)) = ix1 k := funext fun a => by match a with | ⟨0, _⟩ => rfl
  have e1 : idx_main_v55 (ix2 k (0 : Fin 1)) = ix1 k := funext fun a => by match a with | ⟨0, _⟩ => rfl
  unfold val_main_v56
  refine (Cert.LibRowOps.cat2_apply (n := 8000000) _ _ _ k q).trans ?_
  rw [val_main_v54_apply, val_main_v55_apply, e0, e1, val_main_v48_apply, val_main_v53_apply, val_main_v45_apply,
    val_main_v50_apply, val_main_v47_apply, val_main_v52_apply, val_main_v44_apply, val_main_v49_apply, val_main_v46_apply,
    val_main_v51_apply, val_main_c_11_apply, val_main_c_13_apply, val_main_c_12_apply, val_main_c_14_apply]
  rfl

/-! ## The gathered values: the matrices at the named cells -/

theorem v14_at (A : FVec Ideal S8192x8192 .f32) (px py : IVec S2000000 32) (k : Fin 2000000) :
    val_main_v14 (F := Ideal) A px py (ix1 k) = A (Cert.Wsse.cell (px (ix1 k)) (py (ix1 k))) := by
  unfold val_main_v14
  exact gather_pair (by decide) (by decide) _ rfl rfl rfl rfl A _ k _ _ (v13_at px py k 0) (v13_at px py k 1)

theorem v28_at (B : FVec Ideal S8192x8192 .f32) (px py : IVec S2000000 32) (k : Fin 2000000) :
    val_main_v28 (F := Ideal) B px py (ix1 k) = B (Cert.Wsse.cell (px (ix1 k)) (py (ix1 k))) := by
  unfold val_main_v28
  exact gather_pair (by decide) (by decide) _ rfl rfl rfl rfl B _ k _ _ (v27_at px py k 0) (v27_at px py k 1)

theorem v43_at (A : FVec Ideal S8192x8192 .f32) (nx ny : IVec S8000000 32) (k : Fin 8000000) :
    val_main_v43 (F := Ideal) A nx ny (ix1 k) = A (Cert.Wsse.cell (nx (ix1 k)) (ny (ix1 k))) := by
  unfold val_main_v43
  exact gather_pair (by decide) (by decide) _ rfl rfl rfl rfl A _ k _ _ (v42_at nx ny k 0) (v42_at nx ny k 1)

theorem v57_at (B : FVec Ideal S8192x8192 .f32) (nx ny : IVec S8000000 32) (k : Fin 8000000) :
    val_main_v57 (F := Ideal) B nx ny (ix1 k) = B (Cert.Wsse.cell (nx (ix1 k)) (ny (ix1 k))) := by
  unfold val_main_v57
  exact gather_pair (by decide) (by decide) _ rfl rfl rfl rfl B _ k _ _ (v56_at nx ny k 0) (v56_at nx ny k 1)

/-! ## The squared differences at the listed positions -/

theorem v59_at (A B : FVec Ideal S8192x8192 .f32) (px py : IVec S2000000 32) (j : S2000000.Idx) :
    val_main_v59 (F := Ideal) A B px py j = Cert.Wsse.sqd A B (Cert.Wsse.cell (px j) (py j)) := by
  obtain ⟨k, rfl⟩ : ∃ k, j = ix1 k := ⟨j 0, eq_ix1 j⟩
  rw [val_main_v59_apply, val_main_v29_apply, v14_at, v28_at, Ideal.mulf_def, Ideal.subf_def]
  rfl

theorem v61_at (A B : FVec Ideal S8192x8192 .f32) (nx ny : IVec S8000000 32) (j : S8000000.Idx) :
    val_main_v61 (F := Ideal) A B nx ny j = Cert.Wsse.sqd A B (Cert.Wsse.cell (nx j) (ny j)) := by
  obtain ⟨k, rfl⟩ : ∃ k, j = ix1 k := ⟨j 0, eq_ix1 j⟩
  rw [val_main_v61_apply, val_main_v58_apply, v43_at, v57_at, Ideal.mulf_def, Ideal.subf_def]
  rfl

/-! ## The mixing weight, read as a scalar -/

theorem v0_at (al : FVec Ideal S1 .f32) (i : S_.Idx) : val_main_v0 (F := Ideal) al i = al (ix1 0) := by
  unfold val_main_v0
  exact shapeCast_apply al shapeCasts_S1_S_ i (ix1 0) rfl

/-- The program's result stage, at the ideal instance, is the quantity of its arguments. -/
theorem ref_value (A B : FVec Ideal S8192x8192 .f32) (al : FVec Ideal S1 .f32) (px py : IVec S2000000 32)
    (nx ny : IVec S8000000 32) :
    val_main_v68 (F := Ideal) A B al px py nx ny = fun _ => Cert.Wsse.result A B al px py nx ny := by
  funext i
  rw [val_main_v68_apply, val_main_v65_apply, val_main_v67_apply, val_main_v60_apply, val_main_v62_apply,
    val_main_v64_apply, val_main_v66_apply, val_main_v63_apply, v0_at, val_main_cst_apply, val_main_cst_15_apply,
    val_main_cst_16_apply, val_main_cst_17_apply, val_main_cst_18_apply,
    Finset.sum_congr rfl (fun j _ => v59_at A B px py j), Finset.sum_congr rfl (fun j _ => v61_at A B nx ny j),
    Ideal.addf_def, Ideal.mulf_def, Ideal.mulf_def, Ideal.mulf_def, Ideal.mulf_def, Ideal.subf_def]
  rfl

end Cert.ReferenceIdeal.RVal

end
-- ==== Proof.PreDecode.lean ====
/-
  What the precondition says.

  The precondition is a conjunction of seven "all entries" tests: every entry of the two matrices and of the mixing
  weight is smaller in absolute value than +∞ — so it is a real number —, and every index word of the four lists lies
  between −8192 and 8191, read signed.
-/
import proofs.«415010_j58162447123174_3_alg».proof.Proof.Gen.Pre_finite_inputs
import proofs.«415010_j58162447123174_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs Cert.Pre_finite_inputs.Gen

/-- The result of an "all entries" test has one index. -/
private instance subsingleton_scalar : Subsingleton S_.Idx := ⟨fun a b => funext fun d => d.elim0⟩

/-- The pattern 0x7F800000 denotes +∞. -/
private theorem inf_eq_top : Ideal.ofBits .f32 0x7F800000#32 = (⊤ : EReal) := by
  simp [Ideal.ofBits, Ideal.ieee]

/-- An extended real whose absolute value max(x, −x) lies strictly below +∞ is a real number: −∞ and +∞ both have
    absolute value +∞. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry of the test |x| < +∞: the entry is a real number. -/
private theorem finite_entry {s : Shape} (x : FVec Ideal s .f32) (hb : S_.BroadcastsInDim s (![] : Fin 0 → Fin s.rank))
    (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_eq_top] at h'
  simp only [Ideal.cmp, StableHlo.Predicate.ofBool_eq_one_iff, decide_eq_true_eq] at h'
  exact real_of_abs_lt_top (x i) h'

/-- One entry of the test −8192 ≤ w < 8192, signed: the word is a valid index. -/
private theorem inRange_entry {s : Shape} (x : IVec s 32) (hb : S_.BroadcastsInDim s (![] : Fin 0 → Fin s.rank))
    (k : s.Idx)
    (h : andi (cmpi .sge x (broadcastInDim s ![] hb (constantI S_ 32 4294959104#32)))
          (cmpi .slt x (broadcastInDim s ![] hb (constantI S_ 32 8192#32))) k = 1#1) :
    Cert.Wsse.InRange (x k) := by
  have h' : IntOp.andi (IntOp.cmpi .sge (x k) 4294959104#32) (IntOp.cmpi .slt (x k) 8192#32) = 1#1 := h
  obtain ⟨h1, h2⟩ := IntOp.andi_eq_one.1 h'
  have e1 : (4294959104#32 : BitVec 32).toInt = -8192 := by decide
  have e2 : (8192#32 : BitVec 32).toInt = 8192 := by decide
  have g1 := IntOp.cmpi_sge.1 h1
  have g2 := IntOp.cmpi_slt.1 h2
  rw [e1] at g1
  rw [e2] at g2
  exact ⟨g1, g2⟩

/-- The precondition, decoded: the float inputs are real-valued and the index words are valid indices. -/
theorem decode (A B : FVec Ideal S8192x8192 .f32) (al : FVec Ideal S1 .f32) (px py : IVec S2000000 32)
    (nx ny : IVec S8000000 32)
    (h : Cert.Pre_finite_inputs.fn (F := Ideal) A B al px py nx ny = fun _ => 1#1) :
    (∀ i, ∃ r : ℝ, A i = (r : EReal)) ∧ (∀ i, ∃ r : ℝ, B i = (r : EReal)) ∧ (∀ i, ∃ r : ℝ, al i = (r : EReal))
      ∧ (∀ k, Cert.Wsse.InRange (px k)) ∧ (∀ k, Cert.Wsse.InRange (py k))
      ∧ (∀ k, Cert.Wsse.InRange (nx k)) ∧ (∀ k, Cert.Wsse.InRange (ny k)) := by
  have h0 := congrFun h ValueIdx.ix0
  dsimp only [Cert.Pre_finite_inputs.fn, fn_part1, fn_part2] at h0
  -- the outermost conjunction first: ((((((A ∧ B) ∧ α) ∧ pos_x) ∧ pos_y) ∧ neg_x) ∧ neg_y)
  obtain ⟨h6, hny⟩ := IntOp.andi_eq_one.1 h0
  obtain ⟨h5, hnx⟩ := IntOp.andi_eq_one.1 h6
  obtain ⟨h4, hpy⟩ := IntOp.andi_eq_one.1 h5
  obtain ⟨h3, hpx⟩ := IntOp.andi_eq_one.1 h4
  obtain ⟨h2, hal⟩ := IntOp.andi_eq_one.1 h3
  obtain ⟨hA, hB⟩ := IntOp.andi_eq_one.1 h2
  refine ⟨fun i => ?_, fun i => ?_, fun i => ?_, fun k => ?_, fun k => ?_, fun k => ?_, fun k => ?_⟩
  · exact finite_entry A _ i (Host.reduce_andi_all _ _ _ _ _ hA i)
  · exact finite_entry B _ i (Host.reduce_andi_all _ _ _ _ _ hB i)
  · exact finite_entry al _ i (Host.reduce_andi_all _ _ _ _ _ hal i)
  · exact inRange_entry px _ k (Host.reduce_andi_all _ _ _ _ _ hpx k)
  · exact inRange_entry py _ k (Host.reduce_andi_all _ _ _ _ _ hpy k)
  · exact inRange_entry nx _ k (Host.reduce_andi_all _ _ _ _ _ hnx k)
  · exact inRange_entry ny _ k (Host.reduce_andi_all _ _ _ _ _ hny k)

end Cert.PreDecode

end
-- ==== Proof.ScatterRead.lean ====
/-
  The weight matrix at a cell.

  Position `k` of the joined list carries the index pair (row word, column word) of a positive position (the first
  2·10⁶) or of a negative one, and the weight `(1 − α)·½` or `α·½`. When every index word is a valid index, the
  normalised word read signed is already inside the axis, so the scatter lands position `k`'s weight exactly on the
  cell the pair names and drops nothing. The exact scatter-add from zeros therefore leaves at cell `i`: zero, plus the
  positive weight once for each positive position naming `i`, plus the negative weight once for each negative
  position naming `i`.
-/
import proofs.«415010_j58162447123174_3_alg».proof.Proof.KDefs
import proofs.«415010_j58162447123174_3_alg».proof.Proof.LibRowOps
import proofs.«415010_j58162447123174_3_alg».proof.Proof.LibGatherScatter
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

namespace Cert.KernelIdeal.WVal

open Idealize.ShloMosaic Idealize.ShloMosaic.ValueIdx
open Cert.KernelIdeal Cert.KernelIdeal.Gen
open scoped BigOperators
open Cert.LibGatherScatter (resultIdx?_eq_some)

/-! ## The joined lists, read at a position -/

/-- The joined list of words: the first 2·10⁶ come from the positive list, the rest from the negative list. -/
private def joined {α : Type} (p : S2000000.Idx → α) (n : S8000000.Idx → α) (k : Fin 10000000) : α :=
  if h : k.val < 2000000 then p (ix1 ⟨k.val, h⟩) else n (ix1 ⟨k.val - 2000000, by omega⟩)

/-- The concatenation of the two lists at position `k`. -/
private theorem cat_apply {α : Type} (p : S2000000.Idx → α) (n : S8000000.Idx → α) (k : Fin 10000000) :
    concatenate S10000000 0 [⟨S2000000, p⟩, ⟨S8000000, n⟩] concatenates_S2000000_S8000000_S10000000_d0 (ix1 k)
      = joined p n k := by
  unfold joined
  split
  · next h =>
    exact concatenate_pair_apply_left 0 p n _ (ix1 k) rfl (ix1 ⟨k.val, h⟩)
      (fun b => by match b with | ⟨0, _⟩ => rfl)
  · next h =>
    exact concatenate_pair_apply_right 0 p n _ (ix1 k) rfl rfl (ix1 ⟨k.val - 2000000, by omega⟩)
      (fun b hb => by match b with | ⟨0, _⟩ => exact absurd rfl hb)
      (by show (k.val - 2000000) + 2000000 = k.val; omega)

/-- Normalising the list normalises each word. -/
private theorem normWords_apply (x : IVec S10000000 32) (i : S10000000.Idx) : normWords x i = Cert.Wsse.norm (x i) := rfl

/-- The joined index pairs at row `k`: the normalised row word and the normalised column word of position `k`. -/
private theorem idxPairs_apply (px py : IVec S2000000 32) (nx ny : IVec S8000000 32) (k : Fin 10000000) (q : Fin 2) :
    idxPairs px py nx ny (ix2 k q) = ![Cert.Wsse.norm (joined px nx k), Cert.Wsse.norm (joined py ny k)] q := by
  unfold idxPairs
  have hb : ∀ (y : IVec S10000000 32),
      broadcastInDim S10000000x1 ![0] bcast_S10000000_S10000000x1_0 y (ix2 k 0) = y (ix1 k) := fun y =>
    broadcastInDim_apply _ bcast_S10000000_S10000000x1_0 y (ix2 k 0) (ix1 k) (fun a => match a with
      | ⟨0, _⟩ => by show k.val = if (10000000 : Nat) = 1 then 0 else k.val; rw [if_neg (by decide)])
  refine (Cert.LibRowOps.cat2_apply (n := 10000000) _ _ concatenates_S10000000x1_S10000000x1_S10000000x2_d1 k q).trans ?_
  rw [hb, hb, normWords_apply, normWords_apply, cat_apply, cat_apply]

/-! ## A valid index word, normalised, is its coordinate -/

/-- A valid index word, normalised and read signed: the word itself when it is not negative, else the word plus 8192. -/
private theorem norm_toInt (x : BitVec 32) (h : Cert.Wsse.InRange x) :
    (Cert.Wsse.norm x).toInt = if x.toInt < 0 then x.toInt + 8192 else x.toInt := by
  obtain ⟨h1, h2⟩ := h
  have hs : x.slt 0#32 = decide (x.toInt < 0) := by simp [BitVec.slt]
  unfold Cert.Wsse.norm Scalar.select IntOp.cmpi IntOp.addi
  simp only [hs]
  by_cases hx : x.toInt < 0
  · rw [decide_eq_true hx, if_pos hx, if_pos (by rfl)]
    have e : (8192#32).toInt = 8192 := by decide
    rw [BitVec.toInt_add, e]
    exact Int.bmod_eq_of_le_mul_two (by omega) (by omega)
  · rw [decide_eq_false hx, if_neg hx, if_neg (by decide)]

/-- A valid index word, normalised and read signed, lies inside the axis. -/
private theorem norm_range (x : BitVec 32) (h : Cert.Wsse.InRange x) :
    0 ≤ (Cert.Wsse.norm x).toInt ∧ (Cert.Wsse.norm x).toInt < 8192 := by
  rw [norm_toInt x h]
  obtain ⟨h1, h2⟩ := h
  split <;> omega

/-- For a valid index word the coordinate is the normalised word read signed: keeping it inside the axis changes nothing. -/
private theorem coord_val (x : BitVec 32) (h : Cert.Wsse.InRange x) :
    ((Cert.Wsse.norm x).toInt).toNat = (Cert.Wsse.coord x).val := by
  obtain ⟨h1, h2⟩ := norm_range x h
  show _ = min (Cert.Wsse.norm x).toInt.toNat 8191
  omega

/-! ## Where an update lands -/

/-- The scatter's dimension record, under a short name. -/
private abbrev sd : ScatterDims S8192x8192 S10000000x2 S10000000 := scatter_S8192x8192_S10000000x2_S10000000_n_01_01_1

/-- The row of the index list an update reads component `c` of its start index at: row `k`, column `c`. -/
private theorem siIdx_eq (k : Fin 10000000) (c : Fin sd.scatterDimsToOperandDims.length) :
    sd.siIdx (ix1 k) c = ix2 k ⟨c.val, c.isLt⟩ := by
  funext b
  refine Fin.ext ?_
  match b with
  | ⟨0, _⟩ => rfl
  | ⟨1, _⟩ => rfl

/-- The window starts, on the row axis, at the row word of position `k`, read signed. -/
private theorem start_row (idx : IVec S10000000x2 32) (k : Fin 10000000) :
    sd.start (ix1 k) idx 0 = (idx (ix2 k 0)).toInt := by
  unfold ScatterDims.start
  rw [dif_pos (show (0 : Fin 2) ∈ sd.scatterDimsToOperandDims from List.mem_cons_self), siIdx_eq]
  rfl

/-- The window starts, on the column axis, at the column word of position `k`, read signed. -/
private theorem start_col (idx : IVec S10000000x2 32) (k : Fin 10000000) :
    sd.start (ix1 k) idx 1 = (idx (ix2 k 1)).toInt := by
  unfold ScatterDims.start
  rw [dif_pos (show (1 : Fin 2) ∈ sd.scatterDimsToOperandDims from List.mem_cons_of_mem _ List.mem_cons_self), siIdx_eq]
  rfl

/-- Both axes of the matrix are inserted window axes: the window has one cell. -/
private theorem window_zero (k : Fin 10000000) (a : Fin 2) : sd.window (ix1 k) a = 0 := by
  unfold ScatterDims.window
  rw [dif_neg (show ¬ a ∈ sd.sKept from by
    have : sd.sKept = [] := by decide
    rw [this]; exact List.not_mem_nil)]

/-- Position `k` lands, on the row axis, at its normalised row word read signed. -/
private theorem land_row (px py : IVec S2000000 32) (nx ny : IVec S8000000 32) (k : Fin 10000000) :
    sd.start (ix1 k) (idxPairs px py nx ny) 0 + (sd.window (ix1 k) 0 : ℕ)
      = (Cert.Wsse.norm (joined px nx k)).toInt := by
  rw [start_row, window_zero, idxPairs_apply]
  exact Int.add_zero _

/-- Position `k` lands, on the column axis, at its normalised column word read signed. -/
private theorem land_col (px py : IVec S2000000 32) (nx ny : IVec S8000000 32) (k : Fin 10000000) :
    sd.start (ix1 k) (idxPairs px py nx ny) 1 + (sd.window (ix1 k) 1 : ℕ)
      = (Cert.Wsse.norm (joined py ny k)).toInt := by
  rw [start_col, window_zero, idxPairs_apply]
  exact Int.add_zero _

/-- When both words of position `k` are valid indices, its update lands inside the matrix, on the cell the pair names. -/
private theorem resultIdx_eq (px py : IVec S2000000 32) (nx ny : IVec S8000000 32) (k : Fin 10000000)
    (hx : Cert.Wsse.InRange (joined px nx k)) (hy : Cert.Wsse.InRange (joined py ny k)) :
    sd.resultIdx? (ix1 k) (idxPairs px py nx ny) = some (Cert.Wsse.cell (joined px nx k) (joined py ny k)) := by
  have ex : (Cert.Wsse.norm (joined px nx k)).toInt = ((Cert.Wsse.coord (joined px nx k)).val : ℤ) :=
    (Int.toNat_of_nonneg (norm_range _ hx).1).symm.trans (congrArg Nat.cast (coord_val _ hx))
  have ey : (Cert.Wsse.norm (joined py ny k)).toInt = ((Cert.Wsse.coord (joined py ny k)).val : ℤ) :=
    (Int.toNat_of_nonneg (norm_range _ hy).1).symm.trans (congrArg Nat.cast (coord_val _ hy))
  refine resultIdx?_eq_some sd (ix1 k) (idxPairs px py nx ny) _ (fun a => ?_)
  match a with
  | ⟨0, _⟩ => exact (land_row px py nx ny k).trans ex
  | ⟨1, _⟩ => exact (land_col px py nx ny k).trans ey

/-! ## The weights, and the sum over the joined list split in two -/

/-- A position among the first 2·10⁶ of the joined list is a positive position. -/
private theorem joined_left {α : Type} (p : S2000000.Idx → α) (n : S8000000.Idx → α) (k : Fin 2000000) :
    joined p n ⟨k.val, by omega⟩ = p (ix1 k) := by
  unfold joined
  rw [dif_pos (show k.val < 2000000 from k.isLt)]

/-- A position past the first 2·10⁶ of the joined list is a negative position. -/
private theorem joined_right {α : Type} (p : S2000000.Idx → α) (n : S8000000.Idx → α) (k : Fin 8000000) :
    joined p n ⟨2000000 + k.val, by omega⟩ = n (ix1 k) := by
  unfold joined
  rw [dif_neg (show ¬ 2000000 + k.val < 2000000 by omega)]
  exact congrArg n (congrArg ix1 (Fin.ext (show 2000000 + k.val - 2000000 = k.val by omega)))

/-- A sum over the joined list is the sum over the positive list plus the sum over the negative list. -/
private theorem sum_joined (f : Fin 10000000 → EReal) :
    ∑ j : S10000000.Idx, f (j 0)
      = (∑ k : S2000000.Idx, f ⟨(k 0).val, by have h : (k 0).val < 2000000 := (k 0).isLt; omega⟩)
        + ∑ k : S8000000.Idx, f ⟨2000000 + (k 0).val, by have h : (k 0).val < 8000000 := (k 0).isLt; omega⟩ := by
  have e0 : ∑ j : S10000000.Idx, f (j 0) = ∑ k : Fin 10000000, f k := Equiv.sum_comp idxEquiv1 f
  have e1 : ∑ k : Fin 10000000, f k
      = (∑ k : Fin 2000000, f ⟨k.val, by omega⟩) + ∑ k : Fin 8000000, f ⟨2000000 + k.val, by omega⟩ :=
    Fin.sum_univ_add (M := EReal) (a := 2000000) (b := 8000000) f
  have e2 : (∑ k : S2000000.Idx, f ⟨(k 0).val, by have h : (k 0).val < 2000000 := (k 0).isLt; omega⟩) = ∑ k : Fin 2000000, f ⟨k.val, by omega⟩ :=
    Equiv.sum_comp idxEquiv1 (fun k : Fin 2000000 => f ⟨k.val, by omega⟩)
  have e3 : (∑ k : S8000000.Idx, f ⟨2000000 + (k 0).val, by have h : (k 0).val < 8000000 := (k 0).isLt; omega⟩) = ∑ k : Fin 8000000, f ⟨2000000 + k.val, by omega⟩ :=
    Equiv.sum_comp idxEquiv1 (fun k : Fin 8000000 => f ⟨2000000 + k.val, by omega⟩)
  rw [e0, e1, e2, e3]

/-- The mixing weight as a scalar is the one entry of the mixing weight. -/
private theorem alpha0_apply (al : FVec Ideal S1 .f32) (j : S_.Idx) : alpha0 al j = al (ix1 0) := by
  unfold alpha0
  refine (shapeCast_dropUnit_apply (n := 0) ![] al shapeCasts_S1_S_ j).trans (congrArg al ?_)
  funext a
  match a with
  | ⟨0, _⟩ => rfl

/-- The weight alongside position `k`: the positive weight on the first 2·10⁶ positions, the negative weight after. -/
private theorem posWeights_apply (al : FVec Ideal S1 .f32) (k : Fin 10000000) :
    posWeights al (ix1 k) = if k.val < 2000000 then Cert.Wsse.posW al else Cert.Wsse.negW al := by
  unfold posWeights
  rw [cat_apply]
  unfold joined
  by_cases h : k.val < 2000000
  · rw [dif_pos h, if_pos h]
    refine (broadcastInDim_apply _ bcast_S_S2000000 _ _ (fun a => a.elim0) (fun a => a.elim0)).trans ?_
    show (Ideal.ofBits .f32 0x3F800000#32 - alpha0 al _) * Ideal.ofBits .f32 0x3F000000#32 = _
    rw [alpha0_apply]
    rfl
  · rw [dif_neg h, if_neg h]
    refine (broadcastInDim_apply _ bcast_S_S8000000 _ _ (fun a => a.elim0) (fun a => a.elim0)).trans ?_
    show alpha0 al _ * Ideal.ofBits .f32 0x3F000000#32 = _
    rw [alpha0_apply]
    rfl

/-! ## What a position adds to a cell -/

/-- Every word of the joined list is a valid index when every word of the two lists is. -/
private theorem joined_inRange (p : IVec S2000000 32) (n : IVec S8000000 32)
    (hp : ∀ k, Cert.Wsse.InRange (p k)) (hn : ∀ k, Cert.Wsse.InRange (n k)) (k : Fin 10000000) :
    Cert.Wsse.InRange (joined p n k) := by
  unfold joined
  split
  · exact hp _
  · exact hn _

/-- What position `k` of the joined list adds to cell `i`: its weight when its pair names `i`, else nothing. -/
private def contrib (al : FVec Ideal S1 .f32) (px py : IVec S2000000 32) (nx ny : IVec S8000000 32) (i : S8192x8192.Idx)
    (k : Fin 10000000) : EReal :=
  if Cert.Wsse.cell (joined px nx k) (joined py ny k) = i then
    (if k.val < 2000000 then Cert.Wsse.posW al else Cert.Wsse.negW al) else 0

/-- Position `j` of the joined list adds its weight to cell `i` exactly when its pair names `i`. -/
private theorem scatter_term (al : FVec Ideal S1 .f32) (px py : IVec S2000000 32) (nx ny : IVec S8000000 32)
    (hpx : ∀ k, Cert.Wsse.InRange (px k)) (hpy : ∀ k, Cert.Wsse.InRange (py k))
    (hnx : ∀ k, Cert.Wsse.InRange (nx k)) (hny : ∀ k, Cert.Wsse.InRange (ny k)) (i : S8192x8192.Idx) (j : S10000000.Idx) :
    (if sd.resultIdx? j (idxPairs px py nx ny) = some i then posWeights al j else 0) = contrib al px py nx ny i (j 0) := by
  obtain ⟨k, rfl⟩ : ∃ k, j = ix1 k := ⟨j 0, eq_ix1 j⟩
  rw [resultIdx_eq px py nx ny k (joined_inRange px nx hpx hnx k) (joined_inRange py ny hpy hny k), posWeights_apply]
  exact if_congr Option.some_inj rfl rfl

/-- A positive position adds the positive weight to the cell its pair names. -/
private theorem contrib_pos (al : FVec Ideal S1 .f32) (px py : IVec S2000000 32) (nx ny : IVec S8000000 32) (i : S8192x8192.Idx)
    (k : S2000000.Idx) (hk : (k 0).val < 10000000) :
    contrib al px py nx ny i ⟨(k 0).val, hk⟩ = if Cert.Wsse.cell (px k) (py k) = i then Cert.Wsse.posW al else 0 := by
  obtain ⟨k', rfl⟩ : ∃ k', k = ix1 k' := ⟨k 0, eq_ix1 k⟩
  unfold contrib
  rw [joined_left px nx k', joined_left py ny k', if_pos (show k'.val < 2000000 from k'.isLt)]

/-- A negative position adds the negative weight to the cell its pair names. -/
private theorem contrib_neg (al : FVec Ideal S1 .f32) (px py : IVec S2000000 32) (nx ny : IVec S8000000 32) (i : S8192x8192.Idx)
    (k : S8000000.Idx) (hk : 2000000 + (k 0).val < 10000000) :
    contrib al px py nx ny i ⟨2000000 + (k 0).val, hk⟩ = if Cert.Wsse.cell (nx k) (ny k) = i then Cert.Wsse.negW al else 0 := by
  obtain ⟨k', rfl⟩ : ∃ k', k = ix1 k' := ⟨k 0, eq_ix1 k⟩
  unfold contrib
  rw [joined_right px nx k', joined_right py ny k', if_neg (show ¬ 2000000 + k'.val < 2000000 by omega)]

/-! ## The scatter's sum at a cell -/

/-- The exact scatter-add at cell `i`: the operand there plus what every position of the joined list adds to `i`. -/
private theorem scatter_at (al : FVec Ideal S1 .f32) (px py : IVec S2000000 32) (nx ny : IVec S8000000 32)
    (hpx : ∀ k, Cert.Wsse.InRange (px k)) (hpy : ∀ k, Cert.Wsse.InRange (py k))
    (hnx : ∀ k, Cert.Wsse.InRange (nx k)) (hny : ∀ k, Cert.Wsse.InRange (ny k)) (i : S8192x8192.Idx)
    (x : S8192x8192.Idx → EReal) :
    Ideal.hostScatterAdd sd x (idxPairs px py nx ny) (posWeights al) i
      = x i + ∑ j : S10000000.Idx, contrib al px py nx ny i (j 0) := by
  unfold Ideal.hostScatterAdd
  rw [Finset.sum_filter]
  refine congrArg (x i + ·) (Finset.sum_congr rfl fun j _ => ?_)
  exact (if_congr Iff.rfl rfl rfl).trans (scatter_term al px py nx ny hpx hpy hnx hny i j)

/-- The positive positions naming cell `i`, each adding the positive weight: as a sum over the positive list. -/
private theorem pos_sum (al : FVec Ideal S1 .f32) (px py : IVec S2000000 32) (nx ny : IVec S8000000 32) (i : S8192x8192.Idx) :
    (∑ k ∈ Finset.univ.filter (fun k : Cert.Wsse.SP.Idx => Cert.Wsse.cell (px k) (py k) = i), Cert.Wsse.posW al)
      = ∑ k : S2000000.Idx, contrib al px py nx ny i ⟨(k 0).val, by have h : (k 0).val < 2000000 := (k 0).isLt; omega⟩ := by
  rw [Finset.sum_filter]
  refine Finset.sum_congr rfl fun k _ => ?_
  exact ((contrib_pos al px py nx ny i k _).trans (if_congr Iff.rfl rfl rfl)).symm

/-- The negative positions naming cell `i`, each adding the negative weight: as a sum over the negative list. -/
private theorem neg_sum (al : FVec Ideal S1 .f32) (px py : IVec S2000000 32) (nx ny : IVec S8000000 32) (i : S8192x8192.Idx) :
    (∑ k ∈ Finset.univ.filter (fun k : Cert.Wsse.SN.Idx => Cert.Wsse.cell (nx k) (ny k) = i), Cert.Wsse.negW al)
      = ∑ k : S8000000.Idx, contrib al px py nx ny i ⟨2000000 + (k 0).val, by have h : (k 0).val < 8000000 := (k 0).isLt; omega⟩ := by
  rw [Finset.sum_filter]
  refine Finset.sum_congr rfl fun k _ => ?_
  exact ((contrib_neg al px py nx ny i k _).trans (if_congr Iff.rfl rfl rfl)).symm

/-- The matrix of zeros reads zero at every cell. -/
private theorem zeros_apply (i : S8192x8192.Idx) :
    broadcastInDim S8192x8192 ![] bcast_S_S8192x8192 (constant (F := Ideal) S_ .f32 0x00000000#32) i = 0 :=
  (broadcastInDim_apply _ bcast_S_S8192x8192 _ i (fun a => a.elim0) (fun a => a.elim0)).trans Ideal.ofBits_zero_f32

/-! ## The weight matrix at a cell -/

/-- The weight matrix is the exact scatter-add of the weights into the matrix of zeros. -/
private theorem Wmat_eq (al : FVec Ideal S1 .f32) (px py : IVec S2000000 32) (nx ny : IVec S8000000 32) :
    Wmat al px py nx ny
      = Ideal.hostScatterAdd sd (broadcastInDim S8192x8192 ![] bcast_S_S8192x8192 (constant (F := Ideal) S_ .f32 0x00000000#32))
          (idxPairs px py nx ny) (posWeights al) := rfl

/-- The weight matrix at cell `i`, when every index word is a valid index. -/
theorem Wmat_cell (al : FVec Ideal S1 .f32) (px py : IVec S2000000 32) (nx ny : IVec S8000000 32)
    (hpx : ∀ k, Cert.Wsse.InRange (px k)) (hpy : ∀ k, Cert.Wsse.InRange (py k))
    (hnx : ∀ k, Cert.Wsse.InRange (nx k)) (hny : ∀ k, Cert.Wsse.InRange (ny k)) (i : S8192x8192.Idx) :
    Wmat al px py nx ny i
      = 0 + ((∑ k ∈ Finset.univ.filter (fun k : Cert.Wsse.SP.Idx => Cert.Wsse.cell (px k) (py k) = i), Cert.Wsse.posW al)
          + ∑ k ∈ Finset.univ.filter (fun k : Cert.Wsse.SN.Idx => Cert.Wsse.cell (nx k) (ny k) = i), Cert.Wsse.negW al) :=
  (congrFun (Wmat_eq al px py nx ny) i).trans
    ((scatter_at al px py nx ny hpx hpy hnx hny i _).trans
      (congrArg₂ (· + ·) (zeros_apply i)
        ((sum_joined (contrib al px py nx ny i)).trans
          (congrArg₂ (· + ·) (pos_sum al px py nx ny i).symm (neg_sum al px py nx ny i).symm))))

end Cert.KernelIdeal.WVal

end
-- ==== Proof.Algebra.lean ====
/-
  Exchanging the two sums.

  `W i` is the total weight of the positions that name cell `i`: `pw` for each positive position there, `nw` for each
  negative one. Then `∑ᵢ s i · W i = (∑ₖ s (cp k)) · pw + (∑ₖ s (cn k)) · nw`: distribute `s i` over the positions in the
  cell, exchange the sum over cells with the sum over positions (each position lies in exactly one cell), and pull
  the constant weights out. Every step is an identity of real numbers; the hypotheses say the entries are real.
-/
import proofs.«415010_j58162447123174_3_alg».proof.Proof.Spec

noncomputable section

namespace Cert.Wsse

open scoped BigOperators

/-- The coercion of the reals into the extended reals commutes with finite sums. -/
theorem coe_sum {κ : Type} (t : Finset κ) (f : κ → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Over the reals: summing `s i` times the number-weighted count of the positions in cell `i`, over all cells, is
    summing `s` at each position's cell, times the weight. -/
theorem fiber_sum {ι κ : Type} [Fintype ι] [DecidableEq ι] [Fintype κ] (s : ι → ℝ) (w : ℝ) (cp : κ → ι) :
    ∑ i, s i * ∑ _k ∈ Finset.univ.filter (fun k => cp k = i), w = (∑ k, s (cp k)) * w := by
  rw [Finset.sum_mul]
  simp only [Finset.mul_sum]
  rw [← Finset.sum_fiberwise Finset.univ cp (fun k => s (cp k) * w)]
  refine Finset.sum_congr rfl fun i _ => Finset.sum_congr rfl fun k hk => ?_
  rw [(Finset.mem_filter.mp hk).2]

/-- The weighted sum over cells is the two sums over positions, each times its weight. -/
theorem weighted_sum_eq {ι κP κN : Type} [Fintype ι] [DecidableEq ι] [Fintype κP] [Fintype κN]
    (s W : ι → EReal) (pw nw : EReal) (cp : κP → ι) (cn : κN → ι)
    (hs : ∀ i, ∃ r : ℝ, s i = (r : EReal)) (hpw : ∃ r : ℝ, pw = (r : EReal)) (hnw : ∃ r : ℝ, nw = (r : EReal))
    (hW : ∀ i, W i = 0 + ((∑ k ∈ Finset.univ.filter (fun k => cp k = i), pw) + ∑ k ∈ Finset.univ.filter (fun k => cn k = i), nw)) :
    ∑ i, s i * W i = (0 + ∑ k, s (cp k)) * pw + (0 + ∑ k, s (cn k)) * nw := by
  choose sr hsr using hs
  obtain ⟨p, rfl⟩ := hpw
  obtain ⟨n, rfl⟩ := hnw
  have hL : ∑ i, s i * W i
      = ((∑ i, sr i * ((∑ _k ∈ Finset.univ.filter (fun k => cp k = i), p) + ∑ _k ∈ Finset.univ.filter (fun k => cn k = i), n) : ℝ) : EReal) := by
    rw [coe_sum]
    refine Finset.sum_congr rfl fun i _ => ?_
    rw [hW i, hsr i, zero_add, ← coe_sum, ← coe_sum, ← EReal.coe_add, ← EReal.coe_mul]
  have hR : (0 + ∑ k, s (cp k)) * (p : EReal) + (0 + ∑ k, s (cn k)) * (n : EReal)
      = (((∑ k, sr (cp k)) * p + (∑ k, sr (cn k)) * n : ℝ) : EReal) := by
    rw [zero_add, zero_add]
    simp only [hsr]
    rw [← coe_sum, ← coe_sum, ← EReal.coe_mul, ← EReal.coe_mul, ← EReal.coe_add]
  rw [hL, hR]
  congr 1
  simp only [mul_add, Finset.sum_add_distrib]
  rw [fiber_sum sr p cp, fiber_sum sr n cn]

end Cert.Wsse

end
-- ==== Proof.Bridge.lean ====
/-
  The two arrangements of the quantity agree.

  With real-valued matrices and a real mixing weight the squared differences and the two weights are real numbers,
  and with valid index words the weight matrix at a cell is the total weight of the positions naming it; the
  exchange of sums then turns the sum over cells into the two sums over positions.
-/
import proofs.«415010_j58162447123174_3_alg».proof.Proof.ScatterRead
import proofs.«415010_j58162447123174_3_alg».proof.Proof.Algebra

noncomputable section

namespace Cert.Wsse

open Idealize.ShloMosaic Idealize.ShloMosaic.ValueIdx
open scoped BigOperators

/-- The float constants as the real numbers they denote: +0.0 is 0, 1.0 is 1, 0.5 is ½. -/
theorem zero_eq : zero = 0 := Ideal.ofBits_zero_f32
theorem one_eq : one = ((1 : ℝ) : EReal) := by
  simp [one, Ideal.ofBits, Ideal.ieee, -EReal.coe_mul]; norm_num
theorem half_eq : half = ((1 / 2 : ℝ) : EReal) := by
  simp [half, Ideal.ofBits, Ideal.ieee, -EReal.coe_mul]; norm_num

/-- A squared difference of real entries is real. -/
theorem sqd_real (A B : SM.Idx → EReal) (hA : ∀ i, ∃ r : ℝ, A i = (r : EReal)) (hB : ∀ i, ∃ r : ℝ, B i = (r : EReal))
    (i : SM.Idx) : ∃ r : ℝ, sqd A B i = (r : EReal) := by
  obtain ⟨a, ha⟩ := hA i
  obtain ⟨b, hb⟩ := hB i
  exact ⟨(a - b) * (a - b), by unfold sqd; rw [ha, hb]; norm_cast⟩

/-- The two weights of a real mixing weight are real. -/
theorem posW_real (al : SA.Idx → EReal) (hal : ∀ i, ∃ r : ℝ, al i = (r : EReal)) : ∃ r : ℝ, posW al = (r : EReal) := by
  obtain ⟨a, ha⟩ := hal (ix1 0)
  exact ⟨(1 - a) * (1 / 2), by unfold posW; rw [ha, one_eq, half_eq]; norm_cast⟩
theorem negW_real (al : SA.Idx → EReal) (hal : ∀ i, ∃ r : ℝ, al i = (r : EReal)) : ∃ r : ℝ, negW al = (r : EReal) := by
  obtain ⟨a, ha⟩ := hal (ix1 0)
  exact ⟨a * (1 / 2), by unfold negW; rw [ha, half_eq]; norm_cast⟩

/-- The sum over cells against the weight matrix is the quantity. -/
theorem weighted_eq_result (A B : SM.Idx → EReal) (al : SA.Idx → EReal) (px py : SP.Idx → BitVec 32)
    (nx ny : SN.Idx → BitVec 32)
    (hA : ∀ i, ∃ r : ℝ, A i = (r : EReal)) (hB : ∀ i, ∃ r : ℝ, B i = (r : EReal)) (hal : ∀ i, ∃ r : ℝ, al i = (r : EReal))
    (hpx : ∀ k, InRange (px k)) (hpy : ∀ k, InRange (py k)) (hnx : ∀ k, InRange (nx k)) (hny : ∀ k, InRange (ny k)) :
    weighted A B (Cert.KernelIdeal.WVal.Wmat al px py nx ny) = result A B al px py nx ny := by
  unfold weighted result
  rw [zero_eq]
  exact weighted_sum_eq (sqd A B) (Cert.KernelIdeal.WVal.Wmat al px py nx ny) (posW al) (negW al)
    (fun k : SP.Idx => cell (px k) (py k)) (fun k : SN.Idx => cell (nx k) (ny k))
    (sqd_real A B hA hB) (posW_real al hal) (negW_real al hal)
    (fun i => Cert.KernelIdeal.WVal.Wmat_cell al px py nx ny hpx hpy hnx hny i)

end Cert.Wsse

end
-- ==== Proof.lean ====
/-
  The two programs compute the same number.

  One program gathers `(A − B)²` at 2·10⁶ positive and 8·10⁶ negative positions, sums each list and mixes the two sums
  with the weights `(1 − α)·½` and `α·½`. The other scatter-adds those weights into a weight matrix `W` and sums
  `(A − B)² · W` over all 8192 × 8192 cells in 64 tiles. Under the precondition — real-valued float inputs and index
  words that are valid indices — both end at the same extended real: the tiled sum is the sum over all cells, a cell's
  weight is the total weight of the positions naming it, and exchanging the sum over cells with the sum over positions
  (an identity of real numbers) gives the gathered form. An index word outside −8192 … 8191 is excluded by the
  precondition: there the gather would read a clamped cell while the scatter drops the position.
-/
import proofs.«415010_j58162447123174_3_alg».proof.Defs
import proofs.«415010_j58162447123174_3_alg».proof.Proof.Gen.Kernel.Frame
import proofs.«415010_j58162447123174_3_alg».proof.Proof.Gen.KernelIdeal.Frame
import proofs.«415010_j58162447123174_3_alg».proof.Proof.Gen.ReferenceIdeal.Run
import proofs.«415010_j58162447123174_3_alg».proof.Proof.Gen.ReferenceIdeal.Read
import proofs.«415010_j58162447123174_3_alg».proof.Proof.Gen.Pre_finite_inputs
import proofs.«415010_j58162447123174_3_alg».proof.Proof.KValue
import proofs.«415010_j58162447123174_3_alg».proof.Proof.RefValue
import proofs.«415010_j58162447123174_3_alg».proof.Proof.PreDecode
import proofs.«415010_j58162447123174_3_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The gathering program is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the weighted sum over all cells, which is the gathered quantity. -/
theorem algebraic : Cert.algebraic_KernelIdeal_ReferenceIdeal := by
  intro m ρ m' ρ' hpre hagree
  refine ⟨fun c => fun _ => Cert.Wsse.weighted (Cert.KernelIdeal.WVal.Amat m c) (Cert.KernelIdeal.WVal.Bmat m c)
    (Cert.KernelIdeal.WVal.Wm m c), Cert.KernelIdeal.WVal.run_weighted m ρ, ?_⟩
  refine (θ_run Cert.ReferenceIdeal.defs _ _).mono (fun _ h c => ⟨(h c).1.trans ?_, (h c).2⟩)
    (Cert.ReferenceIdeal.Value.run (F := Ideal) m' ρ')
  obtain ⟨hA, hB, hal, hpx, hpy, hnx, hny⟩ := Cert.PreDecode.decode _ _ _ _ _ _ _ (hpre c)
  rw [Cert.ReferenceIdeal.Read.val_main_v68_eq, Cert.ReferenceIdeal.RVal.ref_value,
    (hagree c).1, (hagree c).2.1, (hagree c).2.2.1, (hagree c).2.2.2.1, (hagree c).2.2.2.2.1,
    (hagree c).2.2.2.2.2.1, (hagree c).2.2.2.2.2.2]
  exact funext fun _ => (Cert.Wsse.weighted_eq_result _ _ _ _ _ _ _ hA hB hal hpx hpy hnx hny).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
